-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x32 : Shape := ⟨3, ![32, 4, 32]⟩
abbrev S32x32x256x256 : Shape := ⟨4, ![32, 32, 256, 256]⟩
abbrev S_ : Shape := ⟨0, ![]⟩

class Facts : Prop where
  bcast_S_S32x4x32 : S_.BroadcastsInDim S32x4x32 (![] : Fin 0 → Fin S32x4x32.rank)
  reducesTo_S32x4x32_S_d0_1_2 : S32x4x32.ReducesTo [0, 1, 2] S_
  h_S_ : 0 < S_.numel
  bcast_S_S32x32x256x256 : S_.BroadcastsInDim S32x32x256x256 (![] : Fin 0 → Fin S32x32x256x256.rank)
  reducesTo_S32x32x256x256_S_d0_1_2_3 : S32x32x256x256.ReducesTo [0, 1, 2, 3] S_

variable [Facts]

def fn {F : FTy → Type} [FloatOps F] (main_arg0 : FVec F S32x4x32 .f32) (main_arg1 : FVec F S32x32x256x256 .f32) : IVec S_ 1 :=
  let main_v0 : FVec F S32x4x32 .f32 := Host.absf main_arg0
  let main_cst : FVec F S_ .f32 := constant S_ .f32 0x7F800000#32
  let main_v1 : FVec F S32x4x32 .f32 := broadcastInDim S32x4x32 ![] bcast_S_S32x4x32 main_cst
  let main_v2 : IVec S32x4x32 1 := cmpf .olt main_v0 main_v1
  let main_c : IVec S_ 1 := constantI S_ 1 1#1
  let main_v3 : IVec S_ 1 := (fun x v => Host.reduce IntOp.andi x v reducesTo_S32x4x32_S_d0_1_2 h_S_) main_v2 main_c
  let main_v4 : FVec F S32x32x256x256 .f32 := Host.absf main_arg1
  let main_cst_0 : FVec F S_ .f32 := constant S_ .f32 0x7F800000#32
  let main_v5 : FVec F S32x32x256x256 .f32 := broadcastInDim S32x32x256x256 ![] bcast_S_S32x32x256x256 main_cst_0
  let main_v6 : IVec S32x32x256x256 1 := cmpf .olt main_v4 main_v5
  let main_c_1 : IVec S_ 1 := constantI S_ 1 1#1
  let main_v7 : IVec S_ 1 := (fun x v => Host.reduce IntOp.andi x v reducesTo_S32x32x256x256_S_d0_1_2_3 h_S_) main_v6 main_c_1
  let main_v8 : IVec S_ 1 := andi main_v3 main_v7
  main_v8
-- ==== Kernel.lean ====
abbrev S32x4x32 : Shape := ⟨3, ![32, 4, 32]⟩
abbrev S32x32x256x256 : Shape := ⟨4, ![32, 32, 256, 256]⟩
abbrev S32x32x65536 : Shape := ⟨3, ![32, 32, 65536]⟩
abbrev S1x1 : Shape := ⟨2, ![1, 1]⟩
abbrev S1x32x65536 : Shape := ⟨3, ![1, 32, 65536]⟩
abbrev S32x65536 : Shape := ⟨2, ![32, 65536]⟩
abbrev S32 : Shape := ⟨1, ![32]⟩
abbrev S32x1 : Shape := ⟨2, ![32, 1]⟩
abbrev S1 : Shape := ⟨1, ![1]⟩
abbrev S_ : Shape := ⟨0, ![]⟩
abbrev S32x4x65536 : Shape := ⟨3, ![32, 4, 65536]⟩
abbrev S1x32x16384 : Shape := ⟨3, ![1, 32, 16384]⟩
abbrev S1x4x32 : Shape := ⟨3, ![1, 4, 32]⟩
abbrev S1x4x16384 : Shape := ⟨3, ![1, 4, 16384]⟩
abbrev S32x16384 : Shape := ⟨2, ![32, 16384]⟩
abbrev S4x32 : Shape := ⟨2, ![4, 32]⟩
abbrev S4x16384 : Shape := ⟨2, ![4, 16384]⟩

abbrev nBuf : Space → Nat
  | .hbm => 67
  | .vmem => 14
  | .smem => 0
  | _ => 0

abbrev bufTy : (tb : Table) → Fin (tcTables nBuf tb) → BufTy
  | .hbm, ⟨0, _⟩ => ⟨S32x4x32, .f32⟩
  | .hbm, ⟨1, _⟩ => ⟨S32x32x256x256, .f32⟩
  | .hbm, ⟨2, _⟩ => ⟨S32x32x65536, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S32x4x32, .f32⟩
  | .hbm, ⟨50, _⟩ => ⟨S32x4x32, .f32⟩
  | .hbm, ⟨51, _⟩ => ⟨S32x4x32, .f32⟩
  | .hbm, ⟨52, _⟩ => ⟨S32x4x32, .f32⟩
  | .hbm, ⟨53, _⟩ => ⟨S32x4x32, .f32⟩
  | .hbm, ⟨54, _⟩ => ⟨S_, .i32⟩
  | .hbm, ⟨55, _⟩ => ⟨S_, .i32⟩
  | .hbm, ⟨56, _⟩ => ⟨S_, .f32⟩
  | .hbm, ⟨57, _⟩ => ⟨S32x4x32, .f32⟩
  | .hbm, ⟨58, _⟩ => ⟨S32x4x32, .f32⟩
  | .hbm, ⟨59, _⟩ => ⟨S_, .f32⟩
  | .hbm, ⟨60, _⟩ => ⟨S32x4x32, .f32⟩
  | .hbm, ⟨61, _⟩ => ⟨S32x4x32, .f32⟩
  | .hbm, ⟨62, _⟩ => ⟨S32x4x32, .f32⟩
  | .hbm, ⟨63, _⟩ => ⟨S32x4x32, .f32⟩
  | .hbm, ⟨64, _⟩ => ⟨S32x4x32, .f32⟩
  | .hbm, ⟨65, _⟩ => ⟨S32x4x32, .f32⟩
  | .hbm, ⟨66, _⟩ => ⟨S32x4x65536, .f32⟩
  | .local _ .vmem, ⟨0, _⟩ => ⟨S1x32x65536, .f32⟩
  | .local _ .vmem, ⟨1, _⟩ => ⟨S1x32x65536, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S1x32x16384, .f32⟩
  | .local _ .vmem, ⟨7, _⟩ => ⟨S1x32x16384, .f32⟩
  | .local _ .vmem, ⟨8, _⟩ => ⟨S1x4x32, .f32⟩
  | .local _ .vmem, ⟨9, _⟩ => ⟨S1x4x32, .f32⟩
  | .local _ .vmem, ⟨10, _⟩ => ⟨S1x1, .f32⟩
  | .local _ .vmem, ⟨11, _⟩ => ⟨S1x1, .f32⟩
  | .local _ .vmem, ⟨12, _⟩ => ⟨S1x4x16384, .f32⟩
  | .local _ .vmem, ⟨13, _⟩ => ⟨S1x4x16384, .f32⟩
  | _, _ => ⟨S32x4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_c_3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_cst_7 : Ref sig .tc := ⟨.hbm, 33, rfl⟩
abbrev main_v18 : Ref sig .tc := ⟨.hbm, 34, rfl⟩
abbrev main_v19 : Ref sig .tc := ⟨.hbm, 35, rfl⟩
abbrev main_cst_8 : Ref sig .tc := ⟨.hbm, 36, rfl⟩
abbrev main_v20 : Ref sig .tc := ⟨.hbm, 37, rfl⟩
abbrev main_cst_9 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_10 : Ref sig .tc := ⟨.hbm, 43, rfl⟩
abbrev main_c_11 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_12 : Ref sig .tc := ⟨.hbm, 54, rfl⟩
abbrev main_c_13 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v23 : BitVec 1 := Scalar.cmpi .eq arg0 c31_i32
  let v24 : BitVec 32 := Scalar.extui v23
  let c0_i32_14 : BitVec 32 := 0#32
  let v25 : BitVec 1 := Scalar.cmpi .ne v24 c0_i32_14
  v25

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x32x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x4x16384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S32x32x256x256_S32x32x65536 : S32x32x256x256.ShapeCasts S32x32x65536
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x32x65536_S1x32x65536_0_0_0 : ∀ a, (![0, 0, 0] : Fin 3 → Nat) a + S1x32x65536.size a ≤ S1x32x65536.size a
  h_S1x32x65536 : 0 < S1x32x65536.numel
  shapeCasts_S1x32x65536_S32x65536 : S1x32x65536.ShapeCasts S32x65536
  reduces_S32x65536_S32 : S32x65536.Reduces [1] S32
  shapeCasts_S32_S32x1 : S32.ShapeCasts S32x1
  reduces_S32x1_S1 : S32x1.Reduces [0] S1
  shapeCasts_S1_S1x1 : S1.ShapeCasts S1x1
  shapeCasts_S1x1_S_ : S1x1.ShapeCasts S_
  shapeCasts_S_S1x1 : S_.ShapeCasts S1x1
  reducesTo_S32x4x32_S_d0_1_2 : S32x4x32.ReducesTo [0, 1, 2] S_
  h_S_ : 0 < S_.numel
  bcast_S_S32x4x32 : S_.BroadcastsInDim S32x4x32 (![] : Fin 0 → Fin S32x4x32.rank)
  inb_S1x32x16384_S1x32x16384_0_0_0 : ∀ a, (![0, 0, 0] : Fin 3 → Nat) a + S1x32x16384.size a ≤ S1x32x16384.size a
  h_S1x32x16384 : 0 < S1x32x16384.numel
  shapeCasts_S1x32x16384_S32x16384 : S1x32x16384.ShapeCasts S32x16384
  broadcasts_S1x1_S32x16384 : S1x1.Broadcasts S32x16384
  bitsLt_bf16_f32 : FTy.bits .bf16 < FTy.bits .f32
  inb_S1x4x32_S1x4x32_0_0_0 : ∀ a, (![0, 0, 0] : Fin 3 → Nat) a + S1x4x32.size a ≤ S1x4x32.size a
  h_S1x4x32 : 0 < S1x4x32.numel
  shapeCasts_S1x4x32_S4x32 : S1x4x32.ShapeCasts S4x32
  inb_S1x4x16384_S1x4x16384_0_0_0 : ∀ a, (![0, 0, 0] : Fin 3 → Nat) a + S1x4x16384.size a ≤ S1x4x16384.size a
  h_S1x4x16384 : 0 < S1x4x16384.numel
  shapeCasts_S1x4x16384_S4x16384 : S1x4x16384.ShapeCasts S4x16384
  shapeCasts_S4x16384_S1x4x16384 : S4x16384.ShapeCasts S1x4x16384
  dot_S4x32_S32x16384_S4x16384_1_0_0_1_n_n_wf : DotDims.WF S4x32 S32x16384 S4x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x65536.size a ≤ S32x32x65536.size a
  hwx0_0 : ∀ i : grid0.Coords, EltTy.bits .f32 = 32 ∨ (Rect.block (s := S32x32x65536) S1x32x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x16384.size a ≤ S32x32x65536.size a
  hwx1_0 : ∀ i : grid1.Coords, EltTy.bits .f32 = 32 ∨ (Rect.block (s := S32x32x65536) S1x32x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x32.size a ≤ S32x4x32.size a
  hwx1_1 : ∀ i : grid1.Coords, EltTy.bits .f32 = 32 ∨ (Rect.block (s := S32x4x32) S1x4x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4x16384.size a ≤ S32x4x65536.size a
  hwx1_4 : ∀ i : grid1.Coords, EltTy.bits .f32 = 32 ∨ (Rect.block (s := S32x4x65536) S1x4x16384.size (cc1_transform_4 i) (hinb1_4 i)).WholeWords (EltTy.packing .f32)

variable [Facts₀]

def dot_S4x32_S32x16384_S4x16384_1_0_0_1_n_n : DotDims S4x32 S32x16384 S4x16384 where
  lhsContracting := [1]
  rhsContracting := [0]
  lhsNonContracting := [0]
  rhsNonContracting := [1]
  lhsBatch := []
  rhsBatch := []
  wf := dot_S4x32_S32x16384_S4x16384_1_0_0_1_n_n_wf

abbrev win0_0 : Pipeline.Window sig grid0 :=
  Pipeline.Window.ofSpec (Memref.whole main_v0) S1x32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1x32x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x4x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x4x16384.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x4x32 : Shape := ⟨3, ![32, 4, 32]⟩
abbrev S32x32x256x256 : Shape := ⟨4, ![32, 32, 256, 256]⟩
abbrev S32x32x65536 : Shape := ⟨3, ![32, 32, 65536]⟩
abbrev S_ : Shape := ⟨0, ![]⟩
abbrev S32x4x65536 : Shape := ⟨3, ![32, 4, 65536]⟩

abbrev nBuf : Space → Nat
  | .hbm => 82
  | .vmem => 0
  | .smem => 0
  | _ => 0

abbrev bufTy : (tb : Table) → Fin (tcTables nBuf tb) → BufTy
  | .hbm, ⟨0, _⟩ => ⟨S32x4x32, .f32⟩
  | .hbm, ⟨1, _⟩ => ⟨S32x32x256x256, .f32⟩
  | .hbm, ⟨2, _⟩ => ⟨S32x32x65536, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x4x32, .f32⟩
  | .hbm, ⟨26, _⟩ => ⟨S32x4x32, .f32⟩
  | .hbm, ⟨27, _⟩ => ⟨S32x4x32, .f32⟩
  | .hbm, ⟨28, _⟩ => ⟨S32x4x32, .f32⟩
  | .hbm, ⟨29, _⟩ => ⟨S32x4x32, .f32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S32x4x32, .f32⟩
  | .hbm, ⟨34, _⟩ => ⟨S32x4x32, .f32⟩
  | .hbm, ⟨35, _⟩ => ⟨S_, .f32⟩
  | .hbm, ⟨36, _⟩ => ⟨S32x4x32, .f32⟩
  | .hbm, ⟨37, _⟩ => ⟨S32x4x32, .f32⟩
  | .hbm, ⟨38, _⟩ => ⟨S32x4x32, .f32⟩
  | .hbm, ⟨39, _⟩ => ⟨S32x4x32, .f32⟩
  | .hbm, ⟨40, _⟩ => ⟨S32x4x32, .f32⟩
  | .hbm, ⟨41, _⟩ => ⟨S32x4x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S32x32x65536, .f32⟩
  | .hbm, ⟨65, _⟩ => ⟨S32x32x65536, .f32⟩
  | .hbm, ⟨66, _⟩ => ⟨S32x32x65536, .f32⟩
  | .hbm, ⟨67, _⟩ => ⟨S32x32x65536, .f32⟩
  | .hbm, ⟨68, _⟩ => ⟨S32x32x65536, .f32⟩
  | .hbm, ⟨69, _⟩ => ⟨S_, .i32⟩
  | .hbm, ⟨70, _⟩ => ⟨S_, .i32⟩
  | .hbm, ⟨71, _⟩ => ⟨S_, .f32⟩
  | .hbm, ⟨72, _⟩ => ⟨S32x32x65536, .f32⟩
  | .hbm, ⟨73, _⟩ => ⟨S32x32x65536, .f32⟩
  | .hbm, ⟨74, _⟩ => ⟨S_, .f32⟩
  | .hbm, ⟨75, _⟩ => ⟨S32x32x65536, .f32⟩
  | .hbm, ⟨76, _⟩ => ⟨S32x32x65536, .f32⟩
  | .hbm, ⟨77, _⟩ => ⟨S32x32x65536, .f32⟩
  | .hbm, ⟨78, _⟩ => ⟨S32x32x65536, .f32⟩
  | .hbm, ⟨79, _⟩ => ⟨S32x32x65536, .f32⟩
  | .hbm, ⟨80, _⟩ => ⟨S32x32x65536, .f32⟩
  | .hbm, ⟨81, _⟩ => ⟨S32x4x65536, .f32⟩
  | _, _ => ⟨S32x4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_c_5 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_6 : Ref sig .tc := ⟨.hbm, 30, rfl⟩
abbrev main_c_7 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_v22 : Ref sig .tc := ⟨.hbm, 43, rfl⟩
abbrev main_cst_9 : Ref sig .tc := ⟨.hbm, 44, rfl⟩
abbrev main_v23 : Ref sig .tc := ⟨.hbm, 45, rfl⟩
abbrev main_cst_10 : Ref sig .tc := ⟨.hbm, 46, rfl⟩
abbrev main_v24 : Ref sig .tc := ⟨.hbm, 47, rfl⟩
abbrev main_cst_11 : Ref sig .tc := ⟨.hbm, 48, rfl⟩
abbrev main_v25 : Ref sig .tc := ⟨.hbm, 49, rfl⟩
abbrev main_v26 : Ref sig .tc := ⟨.hbm, 50, rfl⟩
abbrev main_cst_12 : Ref sig .tc := ⟨.hbm, 51, rfl⟩
abbrev main_v27 : Ref sig .tc := ⟨.hbm, 52, rfl⟩
abbrev main_cst_13 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_14 : Ref sig .tc := ⟨.hbm, 58, rfl⟩
abbrev main_c_15 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_16 : Ref sig .tc := ⟨.hbm, 69, rfl⟩
abbrev main_c_17 : Ref sig .tc := ⟨.hbm, 70, rfl⟩
abbrev main_call7_v0 : Ref sig .tc := ⟨.hbm, 71, rfl⟩
abbrev main_call7_v1 : Ref sig .tc := ⟨.hbm, 72, rfl⟩
abbrev main_call7_v2 : Ref sig .tc := ⟨.hbm, 73, rfl⟩
abbrev main_call7_v3 : Ref sig .tc := ⟨.hbm, 74, rfl⟩
abbrev main_call7_v4 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩

abbrev nD : Nat := 1
abbrev τ : Topo := Topo.v7x

variable {F : FTy → Type} [FloatOps F]

class Facts₀ : Prop where
  shapeCasts_S32x32x256x256_S32x32x65536 : S32x32x256x256.ShapeCasts S32x32x65536
  reducesTo_S32x4x32_S_d0_1_2 : S32x4x32.ReducesTo [0, 1, 2] S_
  h_S_ : 0 < S_.numel
  bcast_S_S32x4x32 : S_.BroadcastsInDim S32x4x32 (![] : Fin 0 → Fin S32x4x32.rank)
  reducesTo_S32x32x65536_S_d0_1_2 : S32x32x65536.ReducesTo [0, 1, 2] S_
  bcast_S_S32x32x65536 : S_.BroadcastsInDim S32x32x65536 (![] : Fin 0 → Fin S32x32x65536.rank)
  dot_S32x4x32_S32x32x65536_S32x4x65536_2_1_1_2_0_0_wf : DotDims.WF S32x4x32 S32x32x65536 S32x4x65536 [2] [1] [1] [2] [0] [0]

variable [Facts₀]

def dot_S32x4x32_S32x32x65536_S32x4x65536_2_1_1_2_0_0 : DotDims S32x4x32 S32x32x65536 S32x4x65536 where
  lhsContracting := [2]
  rhsContracting := [1]
  lhsNonContracting := [1]
  rhsNonContracting := [2]
  lhsBatch := [0]
  rhsBatch := [0]
  wf := dot_S32x4x32_S32x32x65536_S32x4x65536_2_1_1_2_0_0_wf

class Facts : Prop extends Facts₀ where

variable [Facts]
-- ==== Proof.K.RunCond.lean ====
import proofs.«102056_j1872605741851_1_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

open Idealize.ShloMosaic.Pipeline (Seg HostSeg RegionSeg)

variable (m : (ℓ : Loc nD τ sig) → Buf (Elt F) ℓ)

-- the launch theorem's implicit arguments are found by unifying its conclusion with this one, which takes unfolding
-- plain definitions in a metavariable's type
set_option backward.isDefEq.respectTransparency.types false in
/-- The whole run, given the two regions' records: under the hypotheses of the conditional frame, every weakly fair
    execution of @main terminates and every final memory holds EVERY unscoped buffer of each core at the last
    valuation `V16 m outs c` — the arguments as launched, and the result array at what region 1 is recorded to leave. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m outs c) ∗ E 1 c) ⊢ R1.pre c)
    (hpost1 : ∀ c : Dev nD, R1.post c ⊢ iprop(StableHlo.held (c : Thread nD τ) (Pipeline.ucRefs τ sig) (V16 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V16 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, hpre0 c, hpost0 c, .rfl, .rfl, .rfl, .rfl, .rfl, .rfl, .rfl, .rfl, .rfl, .rfl, .rfl, .rfl, hpre1 c, (hpost1 c).trans (sep_mono .rfl (hE2 c))⟩)
    (hinit := ?_) (QY := fun c s => ∀ b ∈ Pipeline.ucRefs τ sig, s.mem (((c : Thread nD τ)).1, b) = V16 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (V16 m outs c) s')
    isplitl [Hh] <;> iassumption

end Cert.Kernel.Whole

end
-- ==== Proof.K.ReduceBody.lean ====
import proofs.«102056_j1872605741851_1_alg».proof.Proof.Gen.Kernel.Launch
import proofs.«102056_j1872605741851_1_alg».proof.Proof.Gen.Kernel.Skeleton
import proofs.«102056_j1872605741851_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional of the reduction body: the grid coordinate is zero. -/
abbrev isFirst (i : grid0.Coords) : Prop :=
  (Scalar.cmpi .ne (Scalar.extui (Scalar.cmpi .eq (BitVec.ofNat 32 (i 0).val) 0#32)) 0#32) = 1#1
/-- The second conditional: the grid coordinate is the last one. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 31 :=
  (by decide +kernel : ∀ t : Fin grid0.N, isLast (grid0.coords t) ↔ t.val = 31)

theorem zeros2 : (![0, 0] : Fin 2 → Nat) = fun _ => 0 := by funext a; fin_cases a <;> rfl
theorem zeros3 : (![0, 0, 0] : Fin 3 → Nat) = fun _ => 0 := by funext a; fin_cases a <;> rfl

/-- After a list of stores whose LAST one writes the whole 1×1 buffer, the buffer reads as that store's value. -/
theorem read_whole_store {κ : Kind} {sp : Space} (v : View sig κ sp S1x1 .f32) (f : v.ty.Contents (Elt F))
    (inb : ∀ a, (![0, 0] : Fin 2 → Nat) a + S1x1.size a ≤ S1x1.size a) (w : S1x1.Idx → Elt F .f32)
    (L : List (View.Piece (Elt F) S1x1 .f32)) :
    v.read (Elt F) (v.writes (Elt F) f ((⟨Rect.unit ![0, 0] S1x1.size inb, w⟩ : View.Piece (Elt F) S1x1 .f32) :: L)) = w := by
  rw [View.read_writes_eq_canon _ _ _ (fun y => ⟨_, List.mem_cons_self, View.mem_set_unit_zero zeros2 inb y⟩),
    View.canon_cons_unit_zero zeros2]

variable (c : Dev nD) (i : grid0.Coords)
  (arg1 : Memref sig .tc .vmem S1x32x65536 .f32) (harg1 : arg1.IsWhole)
  (arg2 : Memref sig .tc .vmem S1x1 .f32) (harg2 : arg2.IsWhole)
  (arg3 : Memref sig .tc .vmem S1x1 .f32) (harg3 : arg3.IsWhole)
  (arg4 : Memref sig .tc .vmem S1x1 .f32) (harg4 : arg4.IsWhole)
  (arg5 : Memref sig .tc .vmem S1x1 .f32) (harg5 : arg5.IsWhole)

/-- The body at the first point: both running extrema are reset, then the block's extrema are folded in; the two results' buffers are untouched. -/
theorem run_first (h1 : isFirst i) (h2 : ¬isLast i)
    (x0 : Vec F S1x32x65536 .f32) (y1 y2 : Vec F S1x1 .f32) (E : Set ℕ) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k0_pay4 x0 (k0_pay1 (F := F))) ∗ owns (c : Thread nD τ) arg5 fullShare (k0_pay5 x0 (k0_pay2 (F := F)))) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [read_whole_store]; simp only [View.readAt_eq_ld, View.ld_unit_zero (S := S1x32x65536) zeros3, View.ld_unit_zero (S := S1x1) zeros2, View.readCov_unit_zero (S := S1x1) _ zeros2]
  · iexists _; isplitr
    swap; · iexact H5
    ipureintro
    sl_unfold_words
    rw [read_whole_store]; simp only [View.readAt_eq_ld, View.ld_unit_zero (S := S1x32x65536) zeros3, View.ld_unit_zero (S := S1x1) zeros2, View.readCov_unit_zero (S := S1x1) _ zeros2]

/-- The body at a middle point: the block's extrema are folded into the running ones. -/
theorem run_mid (h1 : ¬isFirst i) (h2 : ¬isLast i)
    (x0 : Vec F S1x32x65536 .f32) (y1 y2 s4 s5 : Vec F S1x1 .f32) (E : Set ℕ) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s4 ∗ owns (c : Thread nD τ) arg5 fullShare s5
        ∗ (iprop(owns (c : Thread nD τ) arg1 fullShare x0 ∗ owns (c : Thread nD τ) arg2 fullShare y1 ∗ owns (c : Thread nD τ) arg3 fullShare y2
            ∗ owns (c : Thread nD τ) arg4 fullShare (k0_pay4 x0 s4) ∗ owns (c : Thread nD τ) arg5 fullShare (k0_pay5 x0 s5)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_whole_store]; simp only [View.readAt_eq_ld, View.ld_unit_zero (S := S1x32x65536) zeros3, View.ld_unit_zero (S := S1x1) zeros2]
  · iexists _; isplitr
    swap; · iexact H5
    ipureintro
    rw [read_whole_store]; simp only [View.readAt_eq_ld, View.ld_unit_zero (S := S1x32x65536) zeros3, View.ld_unit_zero (S := S1x1) zeros2]

/-- The body at the last point: after the fold the running extrema are copied into the two results' buffers. -/
theorem run_last (h1 : ¬isFirst i) (h2 : isLast i)
    (x0 : Vec F S1x32x65536 .f32) (s4 s5 : Vec F S1x1 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s4 ∗ owns (c : Thread nD τ) arg5 fullShare s5
        ∗ (iprop(owns (c : Thread nD τ) arg1 fullShare x0 ∗ owns (c : Thread nD τ) arg2 fullShare (k0_pay4 x0 s4) ∗ owns (c : Thread nD τ) arg3 fullShare (k0_pay5 x0 s5)
            ∗ owns (c : Thread nD τ) arg4 fullShare (k0_pay4 x0 s4) ∗ owns (c : Thread nD τ) arg5 fullShare (k0_pay5 x0 s5)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1 hf4 hf5
  sl_exec (disch := first | exact h1 | exact h2)
  sl_step
  iapply Hk
  isplitl [H1]
  · iexists f1; isplitr; · ipureintro; rfl
    iexact H1
  isplitl [H2]
  · iexists _; isplitr
    swap; · iexact H2
    ipureintro
    sl_unfold_words
    rw [read_whole_store]; simp only [View.readAt_eq_ld, View.ld_unit_zero (S := S1x32x65536) zeros3, View.ld_unit_zero (S := S1x1) zeros2, View.readCov_unit_zero (S := S1x1) _ zeros2]
  isplitl [H3]
  · iexists _; isplitr
    swap; · iexact H3
    ipureintro
    sl_unfold_words
    rw [read_whole_store]; simp only [View.readAt_eq_ld, View.ld_unit_zero (S := S1x32x65536) zeros3, View.ld_unit_zero (S := S1x1) zeros2, View.readCov_unit_zero (S := S1x1) _ zeros2]
  isplitl [H4]
  · iexists _; isplitr
    swap; · iexact H4
    ipureintro
    sl_unfold_words
    rw [read_whole_store]; simp only [View.readAt_eq_ld, View.ld_unit_zero (S := S1x32x65536) zeros3, View.ld_unit_zero (S := S1x1) zeros2, View.readCov_unit_zero (S := S1x1) _ zeros2]
  · iexists _; isplitr
    swap; · iexact H5
    ipureintro
    sl_unfold_words
    rw [read_whole_store]; simp only [View.readAt_eq_ld, View.ld_unit_zero (S := S1x32x65536) zeros3, View.ld_unit_zero (S := S1x1) zeros2, View.readCov_unit_zero (S := S1x1) _ zeros2]

end Cert.Kernel.Reduce

end
-- ==== Proof.K.ReduceData.lean ====
import proofs.«102056_j1872605741851_1_alg».proof.Proof.K.ReduceBody

set_option maxRecDepth 16384

noncomputable section

namespace Cert.Kernel.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running pair (minimum, maximum) the two scratch cells hold after point `n`: reset and folded with block 0 at
    the first point, folded with block `n` afterwards. -/
def acc (c : Dev nD) : (n : ℕ) → n < cfg0.N → Vec F S1x1 .f32 × Vec F S1x1 .f32
  | 0, h => (k0_pay4 (iblk V c 0 ⟨0, h⟩) (k0_pay1 (F := F)), k0_pay5 (iblk V c 0 ⟨0, h⟩) (k0_pay2 (F := F)))
  | n + 1, h => (k0_pay4 (iblk V c 0 ⟨n + 1, h⟩) (acc c n (Nat.lt_of_succ_lt h)).1, k0_pay5 (iblk V c 0 ⟨n + 1, h⟩) (acc c n (Nat.lt_of_succ_lt h)).2)

/-- The two scratch cells. -/
abbrev scMin : Memref sig .tc .vmem S1x1 .f32 := Memref.whole cc0_scratch0
abbrev scMax : Memref sig .tc .vmem S1x1 .f32 := Memref.whole cc0_scratch1

/-- The core's scoped buffers the reduction never touches (the projection's staging buffers), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region invariant before position `n`: before the first point every scoped buffer at anything; afterwards the two
    scratch cells at the running pair the point before left. -/
def Phi (c : Dev nD) : (n : ℕ) → n ≤ cfg0.N → sProp 𝕄
  | 0, _ => Pipeline.ΦA spec0 c
  | n + 1, hn => iprop(iprop(owns (c : Thread nD τ) scMin fullShare (acc V c n hn).1 ∗ owns (c : Thread nD τ) scMax fullShare (acc V c n hn).2 ∗ others (F := F) c) ∗ (∃ r, prngReg c r))

/-- The proof data of the reduction on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (acc V c t.val t.isLt).1
    | ⟨2, _⟩ => (acc V c t.val t.isLt).2
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = (acc V c t.val t.isLt).1 := by dsimp only [dat]
theorem after_2 (c : Dev nD) (t : Fin cfg0.N) : (dat V c).after 2 t = (acc V c t.val t.isLt).2 := by dsimp only [dat]

/-! ## The schedule of the two result windows, and the input window's block -/

/-- The grid has 32 points. -/
theorem N32 : cfg0.N = 32 := N_0

/-- Before the last point the first result window is idle and is not written back. -/
theorem idle_1 : ∀ t : Fin cfg0.N, t.val ≠ 31 → cfg0.idle 1 (grid0.coords t) = true := by decide +kernel
theorem noflush_1 : ∀ t : Fin cfg0.N, t.val ≠ 31 → (cfg0.win 1).flush t = false := by decide +kernel
/-- At the last point it is live. -/
theorem live_1 : ∀ t : Fin cfg0.N, t.val = 31 → cfg0.idle 1 (grid0.coords t) = false := by decide +kernel
/-- The same for the second result window. -/
theorem idle_2 : ∀ t : Fin cfg0.N, t.val ≠ 31 → cfg0.idle 2 (grid0.coords t) = true := by decide +kernel
theorem noflush_2 : ∀ t : Fin cfg0.N, t.val ≠ 31 → (cfg0.win 2).flush t = false := by decide +kernel
theorem live_2 : ∀ t : Fin cfg0.N, t.val = 31 → cfg0.idle 2 (grid0.coords t) = false := by decide +kernel
/-- The input window is never idle. -/
theorem live_0 : ∀ t : Fin cfg0.N, cfg0.idle 0 (grid0.coords t) = false := by decide +kernel

/-- What the launch hands the region, with the two scratch cells as memrefs owned at some contents. -/
theorem PhiA_eq (c : Dev nD) :
    (Pipeline.ΦA spec0 c : sProp 𝕄)
      = iprop(iprop((∃ d, owns (c : Thread nD τ) scMin fullShare d) ∗ (∃ d, owns (c : Thread nD τ) scMax fullShare d) ∗ others (F := F) c) ∗ (∃ r, prngReg c r)) := by
  unfold Pipeline.ΦA others; rw [scopedRest0_eq]; simp only [owns_whole]; try rfl

/-- The input window's current staging buffer holds the point's block, fetched there or not. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-! ## The invariant and the running pair, unfolded by the position -/

theorem Phi_zero (c : Dev nD) (n : ℕ) (h : n ≤ cfg0.N) (hz : n = 0) : Phi V c n h = Pipeline.ΦA spec0 c := by
  subst hz; rfl

/-- After point `n`: the two cells at that point's running pair. -/
theorem Phi_succ (c : Dev nD) (n : ℕ) (hn : n < cfg0.N) :
    Phi V c (n + 1) hn = iprop(iprop(owns (c : Thread nD τ) scMin fullShare (acc V c n hn).1 ∗ owns (c : Thread nD τ) scMax fullShare (acc V c n hn).2 ∗ others (F := F) c) ∗ (∃ r, prngReg c r)) := rfl

/-- Before a point that is not the first: the two cells at what the point before left. -/
theorem Phi_pos (c : Dev nD) (n : ℕ) (h : n ≤ cfg0.N) (hz : n ≠ 0) :
    Phi V c n h = iprop(iprop(owns (c : Thread nD τ) scMin fullShare (acc V c (n - 1) (by omega)).1 ∗ owns (c : Thread nD τ) scMax fullShare (acc V c (n - 1) (by omega)).2 ∗ others (F := F) c) ∗ (∃ r, prngReg c r)) := by
  cases n with
  | zero => exact absurd rfl hz
  | succ n => rfl

/-- The invariant at a point's start, restated at the point's position. -/
theorem Phi_castSucc (c : Dev nD) (t : Fin cfg0.N) :
    (dat V c).Φ t.castSucc = Phi V c t.val (Nat.le_of_lt t.isLt) := by
  dsimp only [dat]; simp only [Fin.coe_castSucc]

/-- The running pair at the first point: the reset values folded with the block. -/
theorem acc_zero (c : Dev nD) (t : Fin cfg0.N) (h : t.val = 0) :
    acc V c t.val t.isLt = (k0_pay4 (iblk V c 0 t) (k0_pay1 (F := F)), k0_pay5 (iblk V c 0 t) (k0_pay2 (F := F))) := by
  obtain ⟨n, hn⟩ := t
  cases n with
  | zero => rfl
  | succ n => exact absurd h (Nat.succ_ne_zero n)

/-- The running pair at a later point: the pair of the point before folded with the block. -/
theorem acc_pos (c : Dev nD) (t : Fin cfg0.N) (h : t.val ≠ 0) :
    acc V c t.val t.isLt = (k0_pay4 (iblk V c 0 t) (acc V c (t.val - 1) (Nat.lt_of_le_of_lt (Nat.sub_le _ _) t.isLt)).1, k0_pay5 (iblk V c 0 t) (acc V c (t.val - 1) (Nat.lt_of_le_of_lt (Nat.sub_le _ _) t.isLt)).2) := by
  obtain ⟨n, hn⟩ := t
  cases n with
  | zero => exact absurd rfl h
  | succ n => rfl

/-! ## The body obligation, at a generic point -/

/-- Each window's current staging memref at a point, at its literal type, and its wholeness. -/
abbrev ms_0 (t : Fin cfg0.N) : Memref sig .tc .vmem S1x32x65536 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1 .f32 := win0_2.stage (cfg0.slots t 2)
abbrev hs_2 (t : Fin cfg0.N) : (ms_2 t).IsWhole := hstage0_2 ((cfg0.slots t 2).cast nbuf0_2)

/-- What the body is called with at point `t`: the invariant, what the core owes, and each window's current buffer at what it then holds. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The input's buffer holds the point's block. At the first point the two cells are at anything and are
    reset; afterwards they hold the pair the point before left. Before the last point the two result windows are idle: their
    buffers come back as found. At the last point both receive the final pair, which is also what the cells hold. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_0 t) fullShare ((dat V c).after 0 t) from by
    unfold Dat.leavesExact; rw [live_0 t], after_0]
  have hN : t.val < 32 := lt_of_lt_of_eq t.isLt N32
  by_cases hz : t.val = 0
  · have hF : isFirst (grid0.coords t) := (isFirst_iff t).mpr hz
    have hL : ¬isLast (grid0.coords t) := fun h => by have := (isLast_iff t).mp h; omega
    rw [Dat.leavesExact_idle (dat V c) 1 t (idle_1 t (by omega)) (noflush_1 t (by omega))]
    rw [Dat.leavesExact_idle (dat V c) 2 t (idle_2 t (by omega)) (noflush_2 t (by omega))]
    rw [acc_zero V c t hz]; (try dsimp only)
    rw [Phi_castSucc V c t, Phi_zero V c _ _ hz, PhiA_eq]
    iintro ⟨⟨⟨H4, H5, Hoth⟩, Hg⟩, Ho, ⟨%d0, H0⟩, ⟨%d1, H1⟩, ⟨%d2, H2⟩⟩
    iapply (run_first c (grid0.coords t) _ _ _ _ _ _ _ _ _ _ hF hL (iblk V c 0 t) _ _ Set.univ _)
    isplitl [H0]; · iexact H0
    isplitl [H1]; · iexact H1
    isplitl [H2]; · iexact H2
    isplitl [H4]; · iexact H4
    isplitl [H5]; · iexact H5
    iintro ⟨H0, H1, H2, H4, H5⟩
    isplitl [H4 H5 Hoth Hg]
    · isplitl [H4 H5 Hoth]
      · isplitl [H4]; · iexact H4
        isplitl [H5]; · iexact H5
        iexact Hoth
      iexact Hg
    isplitl [Ho]; · iexact Ho
    isplitl [H0]; · iexact H0
    isplitl [H1]; · iexists _; iexact H1
    iexists _; iexact H2
  · by_cases hl : t.val = 31
    · have hF : ¬isFirst (grid0.coords t) := fun h => hz ((isFirst_iff t).mp h)
      have hL : isLast (grid0.coords t) := (isLast_iff t).mpr hl
      rw [show (dat V c).leavesExact 1 t = owns (c : Thread nD τ) (ms_1 t) fullShare ((dat V c).after 1 t) from by
        unfold Dat.leavesExact; rw [live_1 t hl], after_1]
      rw [show (dat V c).leavesExact 2 t = owns (c : Thread nD τ) (ms_2 t) fullShare ((dat V c).after 2 t) from by
        unfold Dat.leavesExact; rw [live_2 t hl], after_2]
      rw [acc_pos V c t hz]; (try dsimp only)
      rw [Phi_castSucc V c t, Phi_pos V c _ _ hz]
      iintro ⟨⟨⟨H4, H5, Hoth⟩, Hg⟩, Ho, ⟨%d0, H0⟩, ⟨%d1, H1⟩, ⟨%d2, H2⟩⟩
      iapply (run_last c (grid0.coords t) _ _ _ _ _ _ _ _ _ _ hF hL (iblk V c 0 t) _ _ Set.univ _)
      isplitl [H0]; · iexact H0
      isplitl [H1]; · iexists _; iexact H1
      isplitl [H2]; · iexists _; iexact H2
      isplitl [H4]; · iexact H4
      isplitl [H5]; · iexact H5
      iintro ⟨H0, H1, H2, H4, H5⟩
      isplitl [H4 H5 Hoth Hg]
      · isplitl [H4 H5 Hoth]
        · isplitl [H4]; · iexact H4
          isplitl [H5]; · iexact H5
          iexact Hoth
        iexact Hg
      isplitl [Ho]; · iexact Ho
      isplitl [H0]; · iexact H0
      isplitl [H1]; · iexact H1
      iexact H2
    · have hF : ¬isFirst (grid0.coords t) := fun h => hz ((isFirst_iff t).mp h)
      have hL : ¬isLast (grid0.coords t) := fun h => hl ((isLast_iff t).mp h)
      rw [Dat.leavesExact_idle (dat V c) 1 t (idle_1 t hl) (noflush_1 t hl)]
      rw [Dat.leavesExact_idle (dat V c) 2 t (idle_2 t hl) (noflush_2 t hl)]
      rw [acc_pos V c t hz]; (try dsimp only)
      rw [Phi_castSucc V c t, Phi_pos V c _ _ hz]
      iintro ⟨⟨⟨H4, H5, Hoth⟩, Hg⟩, Ho, ⟨%d0, H0⟩, ⟨%d1, H1⟩, ⟨%d2, H2⟩⟩
      iapply (run_mid c (grid0.coords t) _ _ _ _ _ _ _ _ _ _ hF hL (iblk V c 0 t) _ _ _ _ Set.univ _)
      isplitl [H0]; · iexact H0
      isplitl [H1]; · iexact H1
      isplitl [H2]; · iexact H2
      isplitl [H4]; · iexact H4
      isplitl [H5]; · iexact H5
      iintro ⟨H0, H1, H2, H4, H5⟩
      isplitl [H4 H5 Hoth Hg]
      · isplitl [H4 H5 Hoth]
        · isplitl [H4]; · iexact H4
          isplitl [H5]; · iexact H5
          iexact Hoth
        iexact Hg
      isplitl [Ho]; · iexact Ho
      isplitl [H0]; · iexact H0
      isplitl [H1]; · iexists _; iexact H1
      iexists _; iexact H2

/-- The body obligation of the reduction, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl, Phi_zero V c 0 _ rfl]
  try exact Idealize.SL.BI.Entails.refl _

/-- After the last point the invariant gives the scoped buffers back at some contents. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 32 := N32; omega), PhiA_eq]
  iintro ⟨⟨H4, H5, Ho⟩, Hg⟩
  isplitl [H4 H5 Ho]
  · isplitl [H4]; · iexists _; iexact H4
    isplitl [H5]; · iexists _; iexact H5
    iexact Ho
  iexact Hg

end Cert.Kernel.Reduce

end
-- ==== Proof.K.ProjectBody.lean ====
import proofs.«102056_j1872605741851_1_alg».proof.Proof.Gen.Kernel.Launch
import proofs.«102056_j1872605741851_1_alg».proof.Proof.Gen.Kernel.Skeleton
import proofs.«102056_j1872605741851_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeros3 : (![0, 0, 0] : Fin 3 → Nat) = fun _ => 0 := by funext a; fin_cases a <;> rfl
theorem zeros2 : (![0, 0] : Fin 2 → Nat) = fun _ => 0 := by funext a; fin_cases a <;> rfl

/-- The quantize-and-project body on whole staging buffers: the four inputs are read and left as they were, and the
    result's buffer ends at the product of the token rows with the fake-quantized block. -/
theorem run_project (c : Dev nD) (i : grid1.Coords)
    (arg2 : Memref sig .tc .vmem S1x32x16384 .f32) (harg2 : arg2.IsWhole)
    (arg3 : Memref sig .tc .vmem S1x4x32 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x4x16384 .f32) (harg6 : arg6.IsWhole)
    (x : Vec F S1x32x16384 .f32) (a : Vec F S1x4x32 .f32) (sc zp : Vec F S1x1 .f32) (E : Set ℕ) (K : PUnit → sProp 𝕄) :
    iprop(owns (c : Thread nD τ) arg2 fullShare x ∗ owns (c : Thread nD τ) arg3 fullShare a ∗ owns (c : Thread nD τ) arg4 fullShare sc
        ∗ owns (c : Thread nD τ) arg5 fullShare zp ∗ (∃ d, owns (c : Thread nD τ) arg6 fullShare d)
        ∗ (iprop(owns (c : Thread nD τ) arg2 fullShare x ∗ owns (c : Thread nD τ) arg3 fullShare a ∗ owns (c : Thread nD τ) arg4 fullShare sc
            ∗ owns (c : Thread nD τ) arg5 fullShare zp ∗ owns (c : Thread nD τ) arg6 fullShare (k1_pay1 x sc zp a)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_cons_self, View.mem_set_unit_zero zeros3 inb_S1x4x16384_S1x4x16384_0_0_0 y⟩),
    View.canon_cons_unit_zero zeros3]
  simp only [View.readAt_eq_ld, View.ld_unit_zero (S := S1x32x16384) zeros3, View.ld_unit_zero (S := S1x4x32) zeros3,
    View.ld_unit_zero (S := S1x1) zeros2]

end Cert.Kernel.Project

end
-- ==== Proof.K.ProjectData.lean ====
import proofs.«102056_j1872605741851_1_alg».proof.Proof.K.ProjectBody

set_option maxRecDepth 16384

noncomputable section

namespace Cert.Kernel.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the projection on core `c`: the four inputs' buffers hold their blocks, the result's the product
    of the token rows with the fake-quantized block. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay1 (iblk V c 0 t) (iblk V c 2 t) (iblk V c 3 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay1 (iblk V c 0 t) (iblk V c 2 t) (iblk V c 3 t) (iblk V c 1 t) := by dsimp only [dat]

/-! ## What each input's staging buffer holds when the body is called

The windows are uncut, so what a transfer puts in a buffer is the window's whole block; the body leaves every input
block in place; and a window that is not transferred at a point has not moved its block index since the last
transfer. Hence each input's current buffer reads its block at every point, transferred there or not. -/

/-- Window 0 — the [32,16384] block that is quantized and dequantized, the right factor — is transferred at every point. -/
theorem before_0 (c : Dev nD) (t : Fin cfg1.N) (d) : (dat V c).before 0 t d = iblk V c 0 t := by
  refine ((dat V c).before_in_eq_fetched 0 rfl (fun _ => rfl) (fun _ _ _ => rfl) (fun s => ?_) t d).trans ?_
  · rw [after_0]; unfold Dat.blockOf iblk; rw [A_eq]; try rfl
  · unfold Dat.fetched Dat.blockOf iblk; rw [A_eq]; try rfl

/-- Window 1 — the four rows of the left factor — is transferred when the first coordinate moves, and its block index depends on that coordinate only. -/
theorem before_1 (c : Dev nD) (t : Fin cfg1.N) (d) : (dat V c).before 1 t d = iblk V c 1 t := by
  refine ((dat V c).before_in_eq_fetched 1 rfl (fun _ => rfl) (fun _ _ _ => rfl) (fun s => ?_) t d).trans ?_
  · rw [after_1]; unfold Dat.blockOf iblk; rw [A_eq]; try rfl
  · unfold Dat.fetched Dat.blockOf iblk; rw [A_eq]; try rfl

/-- Window 2 — the scale, a single entry — is transferred once: it has one block. -/
theorem before_2 (c : Dev nD) (t : Fin cfg1.N) (d) : (dat V c).before 2 t d = iblk V c 2 t := by
  refine ((dat V c).before_in_eq_fetched 2 rfl (fun _ => rfl) (fun _ _ _ => rfl) (fun s => ?_) t d).trans ?_
  · rw [after_2]; unfold Dat.blockOf iblk; rw [A_eq]; try rfl
  · unfold Dat.fetched Dat.blockOf iblk; rw [A_eq]; try rfl

/-- Window 3 — the zero point, a single entry — is transferred once: it has one block. -/
theorem before_3 (c : Dev nD) (t : Fin cfg1.N) (d) : (dat V c).before 3 t d = iblk V c 3 t := by
  refine ((dat V c).before_in_eq_fetched 3 rfl (fun _ => rfl) (fun _ _ _ => rfl) (fun s => ?_) t d).trans ?_
  · rw [after_3]; unfold Dat.blockOf iblk; rw [A_eq]; try rfl
  · unfold Dat.fetched Dat.blockOf iblk; rw [A_eq]; try rfl

/-! ## The body at a point -/

/-- The body's triple with a frame carried through: on whole memrefs, the four inputs' at read contents `x`, `a`,
    `sc`, `zp` and the result's at anything, with any `P` and `Q` beside them, the body returns the inputs' as they
    were, the result's at the product of the rows `a` with the block `x` quantized by `sc` and `zp`, and `P`, `Q`
    untouched. -/
theorem framed_triple (c : Dev nD) (i : grid1.Coords)
    (arg2 : Memref sig .tc .vmem S1x32x16384 .f32) (harg2 : arg2.IsWhole)
    (arg3 : Memref sig .tc .vmem S1x4x32 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x4x16384 .f32) (harg6 : arg6.IsWhole)
    (x : Vec F S1x32x16384 .f32) (a : Vec F S1x4x32 .f32) (sc zp : Vec F S1x1 .f32) (P Q : sProp 𝕄) :
    iprop(P ∗ Q
        ∗ owns (c : Thread nD τ) arg2 fullShare x
        ∗ owns (c : Thread nD τ) arg3 fullShare a
        ∗ owns (c : Thread nD τ) arg4 fullShare sc
        ∗ owns (c : Thread nD τ) arg5 fullShare zp
        ∗ (∃ d : Vec F S1x4x16384 .f32, owns (c : Thread nD τ) arg6 fullShare d))
      ⊢ wp frame (wpE (defs₀ (F := F)) Variants.none c none) Set.univ
          (cc1__matmul_kernel i arg2 harg2 arg3 harg3 arg4 harg4 arg5 harg5 arg6 harg6) fun _ =>
          iprop(P ∗ Q
            ∗ owns (c : Thread nD τ) arg2 fullShare x
            ∗ owns (c : Thread nD τ) arg3 fullShare a
            ∗ owns (c : Thread nD τ) arg4 fullShare sc
            ∗ owns (c : Thread nD τ) arg5 fullShare zp
            ∗ owns (c : Thread nD τ) arg6 fullShare (k1_pay1 x sc zp a)) := by
  iintro ⟨HP, HQ, H2, H3, H4, H5, ⟨%d, H6⟩⟩
  iapply (run_project c i arg2 harg2 arg3 harg3 arg4 harg4 arg5 harg5 arg6 harg6 x a sc zp Set.univ _)
  isplitl [H2]; · iexact H2
  isplitl [H3]; · iexact H3
  isplitl [H4]; · iexact H4
  isplitl [H5]; · iexact H5
  isplitl [H6]; · iexists d; iexact H6
  iintro ⟨H2, H3, H4, H5, H6⟩
  isplitl [HP]; · iexact HP
  isplitl [HQ]; · iexact HQ
  isplitl [H2]; · iexact H2
  isplitl [H3]; · iexact H3
  isplitl [H4]; · iexact H4
  isplitl [H5]; · iexact H5
  iexact H6

/-- The body at point `t`, on the windows' current staging memrefs: each input's holds its block (`before_k`), the
    invariant and what the core owes do not depend on the point, and the result's buffer is left at the product of
    the point's blocks. -/
theorem body_at (c : Dev nD) (t : Fin cfg1.N) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d))
        ∗ (∃ d, owns (c : Thread nD τ) (st1_3 t) fullShare ((dat V c).before 3 t d))
        ∗ (∃ d, owns (c : Thread nD τ) (st1_4 t) fullShare ((dat V c).before 4 t d)))
      ⊢ wp frame (wpE (defs₀ (F := F)) Variants.none c none) Set.univ (bodyAt1 t) fun _ =>
          iprop((dat V c).Φ t.succ ∗ (dat V c).owesAt () t.succ
            ∗ owns (c : Thread nD τ) (st1_0 t) fullShare ((dat V c).after 0 t)
            ∗ owns (c : Thread nD τ) (st1_1 t) fullShare ((dat V c).after 1 t)
            ∗ owns (c : Thread nD τ) (st1_2 t) fullShare ((dat V c).after 2 t)
            ∗ owns (c : Thread nD τ) (st1_3 t) fullShare ((dat V c).after 3 t)
            ∗ owns (c : Thread nD τ) (st1_4 t) fullShare ((dat V c).after 4 t)) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (framed_triple c (grid1.coords t) _ _ _ _ _ _ _ _ _ _ (iblk V c 0 t) (iblk V c 1 t) (iblk V c 2 t) (iblk V c 3 t)
    ((dat V c).Φ t.castSucc) ((dat V c).owesAt () t.castSucc))
  isplitl [HΦ]; · iexact HΦ
  isplitl [Ho]; · iexact Ho
  isplitl [H0]; · iexact H0
  isplitl [H1]; · iexact H1
  isplitl [H2]; · iexact H2
  isplitl [H3]; · iexact H3
  iexists _; iexact H4

/-- The body obligation of the projection, at every point: the five windows one by one, none forgotten and none
    idle, are `body_at`'s. -/
theorem body_obligation (c : Dev nD) : BodyObligation (dat (F := F) V c) (defs₀ (F := F)) Variants.none () Set.univ := fun t => by
  rw [bigSep_W1, bigSep_W1]
  exact body_at V c t

end Cert.Kernel.Project

end
-- ==== Proof.K.Whole.lean ====
import proofs.«102056_j1872605741851_1_alg».proof.Proof.K.RunCond
import proofs.«102056_j1872605741851_1_alg».proof.Proof.K.ReduceData
import proofs.«102056_j1872605741851_1_alg».proof.Proof.K.ProjectData
import Idealize.ShloMosaic.Lib.Pipeline.RegionsLoop

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents at the two regions' entries and exits -/

/-- What the reduction finds: the launch contents after the one reshape, read at the TensorCore's references. -/
abbrev Va (c : Dev nD) (b : Ref sig .tc) : Buf (Elt F) ((c : Thread nD τ).loc b) := V1 m c (Proc.devRef .tc b)
/-- The reduction's proof data. -/
abbrev d0 (c : Dev nD) : Dat τ (Elt F) Unit ℕ (UR sig nD τ) ℕ cfg0 c := Reduce.dat (Va m) c
/-- At the reduction's exit: its arrays at what the pipeline leaves, every other buffer as entered. -/
def Wa (c : Dev nD) : Valuation τ sig (Elt F) :=
  Pipeline.withArrays spec0 c (V1 m c) fun w => (d0 m c).arrAt w cfg0.N
/-- What the reduction leaves, as the unknowns the generated valuations are written over. -/
def outsA : Outs (F := F) := fun _ r c => Wa m c (Proc.devRef .tc r)
/-- What the projection finds: the host operations between the regions applied to the reduction's exit contents. -/
abbrev Vb (c : Dev nD) (b : Ref sig .tc) : Buf (Elt F) ((c : Thread nD τ).loc b) := V15 m (outsA m) c (Proc.devRef .tc b)
/-- The projection's proof data. -/
abbrev d1 (c : Dev nD) : Dat τ (Elt F) Unit ℕ (UR sig nD τ) ℕ cfg1 c := Project.dat (Vb m) c
/-- At the projection's exit. -/
def Wb (c : Dev nD) : Valuation τ sig (Elt F) :=
  Pipeline.withArrays spec1 c (V15 m (outsA m) c) fun w => (d1 m c).arrAt w cfg1.N
/-- What the two regions leave. -/
def outs : Outs (F := F) := fun J r c => if J = 16 then Wb m c (Proc.devRef .tc r) else Wa m c (Proc.devRef .tc r)

theorem outs_2 (r : Ref sig .tc) (c : Dev nD) : outs m 2 r c = Wa m c (Proc.devRef .tc r) := rfl
theorem outs_16 (r : Ref sig .tc) (c : Dev nD) : outs m 16 r c = Wb m c (Proc.devRef .tc r) := rfl
theorem V15_outs (c : Dev nD) : V15 m (outs m) c = V15 m (outsA m) c := rfl

theorem Wa_arr (c : Dev nD) (w : Fin cfg0.W) :
    Wa m c (Proc.devRef .tc (Pipeline.arrRef spec0 w)) = (d0 m c).arrAt w cfg0.N := by
  unfold Wa; exact Pipeline.withArrays_arr spec0 launch0.win.arr_inj c _ _ w
theorem Wb_arr (c : Dev nD) (w : Fin cfg1.W) :
    Wb m c (Proc.devRef .tc (Pipeline.arrRef spec1 w)) = (d1 m c).arrAt w cfg1.N := by
  unfold Wb; exact Pipeline.withArrays_arr spec1 launch1.win.arr_inj c _ _ w

/-- At the reduction's exit each of its arrays holds what the pipeline leaves, -/
theorem hF0 (c : Dev nD) (w : Fin cfg0.W) : (d0 m c).arrAt w cfg0.N = V2 m (outs m) c (Proc.devRef .tc (Pipeline.arrRef spec0 w)) := by
  match w with
  | ⟨0, _⟩ =>
    refine ((d0 m c).arrAt_in 0 rfl _).trans ((Reduce.A_eq (Va m) c 0).trans ?_)
    exact (V2_of m (outs m) c main_v0 (by decide)).symm
  | ⟨1, _⟩ =>
    refine (Wa_arr m c 1).symm.trans ?_
    show outs m 2 main_v1_0 c = V2 m (outs m) c (Proc.devRef .tc main_v1_0)
    simp only [V2, Function.update_self, Function.update_of_ne (StableHlo.devRef_ne_of_ne (by decide) : (Proc.devRef .tc main_v1_0 : DevRef τ sig) ≠ Proc.devRef .tc main_v1_1)]
  | ⟨2, _⟩ =>
    refine (Wa_arr m c 2).symm.trans ?_
    show outs m 2 main_v1_1 c = V2 m (outs m) c (Proc.devRef .tc main_v1_1)
    simp only [V2, Function.update_self]
/-- and every other buffer what it held at entry. -/
theorem hrest0 (c : Dev nD) : ∀ b, b ∉ Finset.univ.image (Pipeline.arrRef spec0) → V2 m (outs m) c (Proc.devRef .tc b) = Va m c b := by
  intro b hb
  refine V2_of m (outs m) c b fun h => ?_
  simp only [List.mem_cons, List.mem_nil_iff, or_false] at h
  rcases h with rfl | rfl
  · exact hb (Finset.mem_image.mpr ⟨1, Finset.mem_univ _, rfl⟩)
  · exact hb (Finset.mem_image.mpr ⟨2, Finset.mem_univ _, rfl⟩)
/-- The same at the projection's exit. -/
theorem hF1 (c : Dev nD) (w : Fin cfg1.W) : (d1 m c).arrAt w cfg1.N = V16 m (outs m) c (Proc.devRef .tc (Pipeline.arrRef spec1 w)) := by
  match w with
  | ⟨0, _⟩ =>
    refine ((d1 m c).arrAt_in 0 rfl _).trans ((Project.A_eq (Vb m) c 0).trans ?_)
    exact (V16_of m (outs m) c main_v0 (by decide)).symm
  | ⟨1, _⟩ =>
    refine ((d1 m c).arrAt_in 1 rfl _).trans ((Project.A_eq (Vb m) c 1).trans ?_)
    exact (V16_of m (outs m) c main_v35 (by decide)).symm
  | ⟨2, _⟩ =>
    refine ((d1 m c).arrAt_in 2 rfl _).trans ((Project.A_eq (Vb m) c 2).trans ?_)
    exact (V16_of m (outs m) c main_v13 (by decide)).symm
  | ⟨3, _⟩ =>
    refine ((d1 m c).arrAt_in 3 rfl _).trans ((Project.A_eq (Vb m) c 3).trans ?_)
    exact (V16_of m (outs m) c main_v14 (by decide)).symm
  | ⟨4, _⟩ =>
    refine (Wb_arr m c 4).symm.trans ?_
    show outs m 16 main_v36 c = V16 m (outs m) c (Proc.devRef .tc main_v36)
    simp only [V16, Function.update_self]
theorem hrest1 (c : Dev nD) : ∀ b, b ∉ Finset.univ.image (Pipeline.arrRef spec1) → V16 m (outs m) c (Proc.devRef .tc b) = Vb m c b := by
  intro b hb
  refine V16_of m (outs m) c b fun h => ?_
  simp only [List.mem_cons, List.mem_nil_iff, or_false] at h
  subst h
  exact hb (Finset.mem_image.mpr ⟨4, Finset.mem_univ _, rfl⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => d0 m c
  | ⟨1, _⟩ => fun c => d1 m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)

theorem hin0 (c : Dev nD) : Pipeline.ΦA spec0 c ⊢ (pdats m 0 c).Φ 0 := Reduce.hin (Va m) c
theorem hout0 (c : Dev nD) : (pdats m 0 c).Φ (Fin.last cfg0.N) ⊢ Pipeline.ΦA spec0 c := Reduce.hout (Va m) c
theorem hin1 (c : Dev nD) : Pipeline.ΦA spec1 c ⊢ (pdats m 1 c).Φ 0 := .rfl
theorem hout1 (c : Dev nD) : (pdats m 1 c).Φ (Fin.last cfg1.N) ⊢ Pipeline.ΦA spec1 c := .rfl

/-! ## The regions as segments -/

-- `iapply` of a library lemma stated over the pinned configuration unifies with it only when unification may
-- unfold plain definitions in a metavariable's type
set_option backward.isDefEq.respectTransparency.types false in
/-- Region 0 over the thread state: entered from every unscoped buffer at its entry valuation, left at the next one;
    its arrays split out of the unscoped buffers and put back at their exit contents, the generator register into the
    invariant and out, nothing owed, no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reduce.body_obligation (Va m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 m c)
    unfold Pipeline.ΦA
    iintro ⟨Hp, -, Hr⟩
    isplitl [Hr]; · iexact Hr
    iexact Hp
  hout c := by
    refine (hout0 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (fun b => V2 m (outs m) c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may
-- unfold plain definitions in a metavariable's type
set_option backward.isDefEq.respectTransparency.types false in
/-- Region 1 over the thread state: entered from every unscoped buffer at its entry valuation, left at the next one;
    its arrays split out of the unscoped buffers and put back at their exit contents, the generator register into the
    invariant and out, nothing owed, no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Project.body_obligation (Vb m) c).loose
  hwaits := Pipeline.hwaits_of_owed_zero _ _ _ _ L lv 1 fun _ _ => rfl
  pre c := iprop(StableHlo.held (c : Thread nD τ) (Pipeline.ucRefs τ sig) (V15 m (outsA m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 m c)
    unfold Pipeline.ΦA
    iintro ⟨Hp, -, Hr⟩
    isplitl [Hr]; · iexact Hr
    iexact Hp
  hout c := by
    refine (hout1 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (fun b => V16 m (outs m) c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole run -/

variable (ρ : Dev nD → PrngReg)

-- the launch theorem's implicit arguments are found by unifying its conclusion with this one
set_option backward.isDefEq.respectTransparency.types false in
/-- Every weakly fair execution of @main terminates, and every final memory holds each core's unscoped buffers at the last
    valuation: the arguments as launched, the result at what the projection's write-backs leave. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V16 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, H⟩; iexact H)
    (R0 := reg0 m) (hpre0 := fun _ => .rfl) (hpost0 := fun _ => .rfl)
    (R1 := reg1 m) (hpre1 := fun _ => .rfl) (hpost1 := fun _ => .rfl)

end Cert.Kernel.Whole

end
-- ==== Proof.RunCond.lean ====
import proofs.«102056_j1872605741851_1_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.Pipeline (Seg HostSeg RegionSeg)

variable (m : (ℓ : Loc nD τ sig) → Buf (Elt F) ℓ)

-- the launch theorem's implicit arguments are found by unifying its conclusion with this one, which takes unfolding
-- plain definitions in a metavariable's type
set_option backward.isDefEq.respectTransparency.types false in
/-- The whole run, given the two regions' records: under the hypotheses of the conditional frame, every weakly fair
    execution of @main terminates and every final memory holds EVERY unscoped buffer of each core at the last
    valuation `V16 m outs c` — the arguments as launched, and the result array at what region 1 is recorded to leave. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m outs c) ∗ E 1 c) ⊢ R1.pre c)
    (hpost1 : ∀ c : Dev nD, R1.post c ⊢ iprop(StableHlo.held (c : Thread nD τ) (Pipeline.ucRefs τ sig) (V16 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V16 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, hpre0 c, hpost0 c, .rfl, .rfl, .rfl, .rfl, .rfl, .rfl, .rfl, .rfl, .rfl, .rfl, .rfl, .rfl, hpre1 c, (hpost1 c).trans (sep_mono .rfl (hE2 c))⟩)
    (hinit := ?_) (QY := fun c s => ∀ b ∈ Pipeline.ucRefs τ sig, s.mem (((c : Thread nD τ)).1, b) = V16 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (V16 m outs c) s')
    isplitl [Hh] <;> iassumption

end Cert.KernelIdeal.Whole

end
-- ==== Proof.ReduceBody.lean ====
import proofs.«102056_j1872605741851_1_alg».proof.Proof.Gen.KernelIdeal.Launch
import proofs.«102056_j1872605741851_1_alg».proof.Proof.Gen.KernelIdeal.Skeleton
import proofs.«102056_j1872605741851_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional of the reduction body: the grid coordinate is zero. -/
abbrev isFirst (i : grid0.Coords) : Prop :=
  (Scalar.cmpi .ne (Scalar.extui (Scalar.cmpi .eq (BitVec.ofNat 32 (i 0).val) 0#32)) 0#32) = 1#1
/-- The second conditional: the grid coordinate is the last one. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 31 :=
  (by decide +kernel : ∀ t : Fin grid0.N, isLast (grid0.coords t) ↔ t.val = 31)

theorem zeros2 : (![0, 0] : Fin 2 → Nat) = fun _ => 0 := by funext a; fin_cases a <;> rfl
theorem zeros3 : (![0, 0, 0] : Fin 3 → Nat) = fun _ => 0 := by funext a; fin_cases a <;> rfl

/-- After a list of stores whose LAST one writes the whole 1×1 buffer, the buffer reads as that store's value. -/
theorem read_whole_store {κ : Kind} {sp : Space} (v : View sig κ sp S1x1 .f32) (f : v.ty.Contents (Elt F))
    (inb : ∀ a, (![0, 0] : Fin 2 → Nat) a + S1x1.size a ≤ S1x1.size a) (w : S1x1.Idx → Elt F .f32)
    (L : List (View.Piece (Elt F) S1x1 .f32)) :
    v.read (Elt F) (v.writes (Elt F) f ((⟨Rect.unit ![0, 0] S1x1.size inb, w⟩ : View.Piece (Elt F) S1x1 .f32) :: L)) = w := by
  rw [View.read_writes_eq_canon _ _ _ (fun y => ⟨_, List.mem_cons_self, View.mem_set_unit_zero zeros2 inb y⟩),
    View.canon_cons_unit_zero zeros2]

variable (c : Dev nD) (i : grid0.Coords)
  (arg1 : Memref sig .tc .vmem S1x32x65536 .f32) (harg1 : arg1.IsWhole)
  (arg2 : Memref sig .tc .vmem S1x1 .f32) (harg2 : arg2.IsWhole)
  (arg3 : Memref sig .tc .vmem S1x1 .f32) (harg3 : arg3.IsWhole)
  (arg4 : Memref sig .tc .vmem S1x1 .f32) (harg4 : arg4.IsWhole)
  (arg5 : Memref sig .tc .vmem S1x1 .f32) (harg5 : arg5.IsWhole)

/-- The body at the first point: both running extrema are reset, then the block's extrema are folded in; the two results' buffers are untouched. -/
theorem run_first (h1 : isFirst i) (h2 : ¬isLast i)
    (x0 : Vec F S1x32x65536 .f32) (y1 y2 : Vec F S1x1 .f32) (E : Set ℕ) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k0_pay4 x0 (k0_pay1 (F := F))) ∗ owns (c : Thread nD τ) arg5 fullShare (k0_pay5 x0 (k0_pay2 (F := F)))) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [read_whole_store]; simp only [View.readAt_eq_ld, View.ld_unit_zero (S := S1x32x65536) zeros3, View.ld_unit_zero (S := S1x1) zeros2, View.readCov_unit_zero (S := S1x1) _ zeros2]
  · iexists _; isplitr
    swap; · iexact H5
    ipureintro
    sl_unfold_words
    rw [read_whole_store]; simp only [View.readAt_eq_ld, View.ld_unit_zero (S := S1x32x65536) zeros3, View.ld_unit_zero (S := S1x1) zeros2, View.readCov_unit_zero (S := S1x1) _ zeros2]

/-- The body at a middle point: the block's extrema are folded into the running ones. -/
theorem run_mid (h1 : ¬isFirst i) (h2 : ¬isLast i)
    (x0 : Vec F S1x32x65536 .f32) (y1 y2 s4 s5 : Vec F S1x1 .f32) (E : Set ℕ) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s4 ∗ owns (c : Thread nD τ) arg5 fullShare s5
        ∗ (iprop(owns (c : Thread nD τ) arg1 fullShare x0 ∗ owns (c : Thread nD τ) arg2 fullShare y1 ∗ owns (c : Thread nD τ) arg3 fullShare y2
            ∗ owns (c : Thread nD τ) arg4 fullShare (k0_pay4 x0 s4) ∗ owns (c : Thread nD τ) arg5 fullShare (k0_pay5 x0 s5)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_whole_store]; simp only [View.readAt_eq_ld, View.ld_unit_zero (S := S1x32x65536) zeros3, View.ld_unit_zero (S := S1x1) zeros2]
  · iexists _; isplitr
    swap; · iexact H5
    ipureintro
    rw [read_whole_store]; simp only [View.readAt_eq_ld, View.ld_unit_zero (S := S1x32x65536) zeros3, View.ld_unit_zero (S := S1x1) zeros2]

/-- The body at the last point: after the fold the running extrema are copied into the two results' buffers. -/
theorem run_last (h1 : ¬isFirst i) (h2 : isLast i)
    (x0 : Vec F S1x32x65536 .f32) (s4 s5 : Vec F S1x1 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s4 ∗ owns (c : Thread nD τ) arg5 fullShare s5
        ∗ (iprop(owns (c : Thread nD τ) arg1 fullShare x0 ∗ owns (c : Thread nD τ) arg2 fullShare (k0_pay4 x0 s4) ∗ owns (c : Thread nD τ) arg3 fullShare (k0_pay5 x0 s5)
            ∗ owns (c : Thread nD τ) arg4 fullShare (k0_pay4 x0 s4) ∗ owns (c : Thread nD τ) arg5 fullShare (k0_pay5 x0 s5)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1 hf4 hf5
  sl_exec (disch := first | exact h1 | exact h2)
  sl_step
  iapply Hk
  isplitl [H1]
  · iexists f1; isplitr; · ipureintro; rfl
    iexact H1
  isplitl [H2]
  · iexists _; isplitr
    swap; · iexact H2
    ipureintro
    sl_unfold_words
    rw [read_whole_store]; simp only [View.readAt_eq_ld, View.ld_unit_zero (S := S1x32x65536) zeros3, View.ld_unit_zero (S := S1x1) zeros2, View.readCov_unit_zero (S := S1x1) _ zeros2]
  isplitl [H3]
  · iexists _; isplitr
    swap; · iexact H3
    ipureintro
    sl_unfold_words
    rw [read_whole_store]; simp only [View.readAt_eq_ld, View.ld_unit_zero (S := S1x32x65536) zeros3, View.ld_unit_zero (S := S1x1) zeros2, View.readCov_unit_zero (S := S1x1) _ zeros2]
  isplitl [H4]
  · iexists _; isplitr
    swap; · iexact H4
    ipureintro
    sl_unfold_words
    rw [read_whole_store]; simp only [View.readAt_eq_ld, View.ld_unit_zero (S := S1x32x65536) zeros3, View.ld_unit_zero (S := S1x1) zeros2, View.readCov_unit_zero (S := S1x1) _ zeros2]
  · iexists _; isplitr
    swap; · iexact H5
    ipureintro
    sl_unfold_words
    rw [read_whole_store]; simp only [View.readAt_eq_ld, View.ld_unit_zero (S := S1x32x65536) zeros3, View.ld_unit_zero (S := S1x1) zeros2, View.readCov_unit_zero (S := S1x1) _ zeros2]

end Cert.KernelIdeal.Reduce

end
-- ==== Proof.ReduceData.lean ====
import proofs.«102056_j1872605741851_1_alg».proof.Proof.ReduceBody

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running pair (minimum, maximum) the two scratch cells hold after point `n`: reset and folded with block 0 at
    the first point, folded with block `n` afterwards. -/
def acc (c : Dev nD) : (n : ℕ) → n < cfg0.N → Vec F S1x1 .f32 × Vec F S1x1 .f32
  | 0, h => (k0_pay4 (iblk V c 0 ⟨0, h⟩) (k0_pay1 (F := F)), k0_pay5 (iblk V c 0 ⟨0, h⟩) (k0_pay2 (F := F)))
  | n + 1, h => (k0_pay4 (iblk V c 0 ⟨n + 1, h⟩) (acc c n (Nat.lt_of_succ_lt h)).1, k0_pay5 (iblk V c 0 ⟨n + 1, h⟩) (acc c n (Nat.lt_of_succ_lt h)).2)

/-- The two scratch cells. -/
abbrev scMin : Memref sig .tc .vmem S1x1 .f32 := Memref.whole cc0_scratch0
abbrev scMax : Memref sig .tc .vmem S1x1 .f32 := Memref.whole cc0_scratch1

/-- The core's scoped buffers the reduction never touches (the projection's staging buffers), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region invariant before position `n`: before the first point every scoped buffer at anything; afterwards the two
    scratch cells at the running pair the point before left. -/
def Phi (c : Dev nD) : (n : ℕ) → n ≤ cfg0.N → sProp 𝕄
  | 0, _ => Pipeline.ΦA spec0 c
  | n + 1, hn => iprop(iprop(owns (c : Thread nD τ) scMin fullShare (acc V c n hn).1 ∗ owns (c : Thread nD τ) scMax fullShare (acc V c n hn).2 ∗ others (F := F) c) ∗ (∃ r, prngReg c r))

/-- The proof data of the reduction on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (acc V c t.val t.isLt).1
    | ⟨2, _⟩ => (acc V c t.val t.isLt).2
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = (acc V c t.val t.isLt).1 := by dsimp only [dat]
theorem after_2 (c : Dev nD) (t : Fin cfg0.N) : (dat V c).after 2 t = (acc V c t.val t.isLt).2 := by dsimp only [dat]

/-! ## The schedule of the two result windows, and the input window's block -/

/-- The grid has 32 points. -/
theorem N32 : cfg0.N = 32 := N_0

/-- Before the last point the first result window is idle and is not written back. -/
theorem idle_1 : ∀ t : Fin cfg0.N, t.val ≠ 31 → cfg0.idle 1 (grid0.coords t) = true := by decide +kernel
theorem noflush_1 : ∀ t : Fin cfg0.N, t.val ≠ 31 → (cfg0.win 1).flush t = false := by decide +kernel
/-- At the last point it is live. -/
theorem live_1 : ∀ t : Fin cfg0.N, t.val = 31 → cfg0.idle 1 (grid0.coords t) = false := by decide +kernel
/-- The same for the second result window. -/
theorem idle_2 : ∀ t : Fin cfg0.N, t.val ≠ 31 → cfg0.idle 2 (grid0.coords t) = true := by decide +kernel
theorem noflush_2 : ∀ t : Fin cfg0.N, t.val ≠ 31 → (cfg0.win 2).flush t = false := by decide +kernel
theorem live_2 : ∀ t : Fin cfg0.N, t.val = 31 → cfg0.idle 2 (grid0.coords t) = false := by decide +kernel
/-- The input window is never idle. -/
theorem live_0 : ∀ t : Fin cfg0.N, cfg0.idle 0 (grid0.coords t) = false := by decide +kernel

/-- What the launch hands the region, with the two scratch cells as memrefs owned at some contents. -/
theorem PhiA_eq (c : Dev nD) :
    (Pipeline.ΦA spec0 c : sProp 𝕄)
      = iprop(iprop((∃ d, owns (c : Thread nD τ) scMin fullShare d) ∗ (∃ d, owns (c : Thread nD τ) scMax fullShare d) ∗ others (F := F) c) ∗ (∃ r, prngReg c r)) := by
  unfold Pipeline.ΦA others; rw [scopedRest0_eq]; simp only [owns_whole]; try rfl

/-- The input window's current staging buffer holds the point's block, fetched there or not. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-! ## The invariant and the running pair, unfolded by the position -/

theorem Phi_zero (c : Dev nD) (n : ℕ) (h : n ≤ cfg0.N) (hz : n = 0) : Phi V c n h = Pipeline.ΦA spec0 c := by
  subst hz; rfl

/-- After point `n`: the two cells at that point's running pair. -/
theorem Phi_succ (c : Dev nD) (n : ℕ) (hn : n < cfg0.N) :
    Phi V c (n + 1) hn = iprop(iprop(owns (c : Thread nD τ) scMin fullShare (acc V c n hn).1 ∗ owns (c : Thread nD τ) scMax fullShare (acc V c n hn).2 ∗ others (F := F) c) ∗ (∃ r, prngReg c r)) := rfl

/-- Before a point that is not the first: the two cells at what the point before left. -/
theorem Phi_pos (c : Dev nD) (n : ℕ) (h : n ≤ cfg0.N) (hz : n ≠ 0) :
    Phi V c n h = iprop(iprop(owns (c : Thread nD τ) scMin fullShare (acc V c (n - 1) (by omega)).1 ∗ owns (c : Thread nD τ) scMax fullShare (acc V c (n - 1) (by omega)).2 ∗ others (F := F) c) ∗ (∃ r, prngReg c r)) := by
  cases n with
  | zero => exact absurd rfl hz
  | succ n => rfl

/-- The invariant at a point's start, restated at the point's position. -/
theorem Phi_castSucc (c : Dev nD) (t : Fin cfg0.N) :
    (dat V c).Φ t.castSucc = Phi V c t.val (Nat.le_of_lt t.isLt) := by
  dsimp only [dat]; simp only [Fin.coe_castSucc]

/-- The running pair at the first point: the reset values folded with the block. -/
theorem acc_zero (c : Dev nD) (t : Fin cfg0.N) (h : t.val = 0) :
    acc V c t.val t.isLt = (k0_pay4 (iblk V c 0 t) (k0_pay1 (F := F)), k0_pay5 (iblk V c 0 t) (k0_pay2 (F := F))) := by
  obtain ⟨n, hn⟩ := t
  cases n with
  | zero => rfl
  | succ n => exact absurd h (Nat.succ_ne_zero n)

/-- The running pair at a later point: the pair of the point before folded with the block. -/
theorem acc_pos (c : Dev nD) (t : Fin cfg0.N) (h : t.val ≠ 0) :
    acc V c t.val t.isLt = (k0_pay4 (iblk V c 0 t) (acc V c (t.val - 1) (Nat.lt_of_le_of_lt (Nat.sub_le _ _) t.isLt)).1, k0_pay5 (iblk V c 0 t) (acc V c (t.val - 1) (Nat.lt_of_le_of_lt (Nat.sub_le _ _) t.isLt)).2) := by
  obtain ⟨n, hn⟩ := t
  cases n with
  | zero => exact absurd rfl h
  | succ n => rfl

/-! ## The body obligation, at a generic point -/

/-- Each window's current staging memref at a point, at its literal type, and its wholeness. -/
abbrev ms_0 (t : Fin cfg0.N) : Memref sig .tc .vmem S1x32x65536 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1 .f32 := win0_2.stage (cfg0.slots t 2)
abbrev hs_2 (t : Fin cfg0.N) : (ms_2 t).IsWhole := hstage0_2 ((cfg0.slots t 2).cast nbuf0_2)

/-- What the body is called with at point `t`: the invariant, what the core owes, and each window's current buffer at what it then holds. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The input's buffer holds the point's block. At the first point the two cells are at anything and are
    reset; afterwards they hold the pair the point before left. Before the last point the two result windows are idle: their
    buffers come back as found. At the last point both receive the final pair, which is also what the cells hold. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_0 t) fullShare ((dat V c).after 0 t) from by
    unfold Dat.leavesExact; rw [live_0 t], after_0]
  have hN : t.val < 32 := lt_of_lt_of_eq t.isLt N32
  by_cases hz : t.val = 0
  · have hF : isFirst (grid0.coords t) := (isFirst_iff t).mpr hz
    have hL : ¬isLast (grid0.coords t) := fun h => by have := (isLast_iff t).mp h; omega
    rw [Dat.leavesExact_idle (dat V c) 1 t (idle_1 t (by omega)) (noflush_1 t (by omega))]
    rw [Dat.leavesExact_idle (dat V c) 2 t (idle_2 t (by omega)) (noflush_2 t (by omega))]
    rw [acc_zero V c t hz]; (try dsimp only)
    rw [Phi_castSucc V c t, Phi_zero V c _ _ hz, PhiA_eq]
    iintro ⟨⟨⟨H4, H5, Hoth⟩, Hg⟩, Ho, ⟨%d0, H0⟩, ⟨%d1, H1⟩, ⟨%d2, H2⟩⟩
    iapply (run_first c (grid0.coords t) _ _ _ _ _ _ _ _ _ _ hF hL (iblk V c 0 t) _ _ Set.univ _)
    isplitl [H0]; · iexact H0
    isplitl [H1]; · iexact H1
    isplitl [H2]; · iexact H2
    isplitl [H4]; · iexact H4
    isplitl [H5]; · iexact H5
    iintro ⟨H0, H1, H2, H4, H5⟩
    isplitl [H4 H5 Hoth Hg]
    · isplitl [H4 H5 Hoth]
      · isplitl [H4]; · iexact H4
        isplitl [H5]; · iexact H5
        iexact Hoth
      iexact Hg
    isplitl [Ho]; · iexact Ho
    isplitl [H0]; · iexact H0
    isplitl [H1]; · iexists _; iexact H1
    iexists _; iexact H2
  · by_cases hl : t.val = 31
    · have hF : ¬isFirst (grid0.coords t) := fun h => hz ((isFirst_iff t).mp h)
      have hL : isLast (grid0.coords t) := (isLast_iff t).mpr hl
      rw [show (dat V c).leavesExact 1 t = owns (c : Thread nD τ) (ms_1 t) fullShare ((dat V c).after 1 t) from by
        unfold Dat.leavesExact; rw [live_1 t hl], after_1]
      rw [show (dat V c).leavesExact 2 t = owns (c : Thread nD τ) (ms_2 t) fullShare ((dat V c).after 2 t) from by
        unfold Dat.leavesExact; rw [live_2 t hl], after_2]
      rw [acc_pos V c t hz]; (try dsimp only)
      rw [Phi_castSucc V c t, Phi_pos V c _ _ hz]
      iintro ⟨⟨⟨H4, H5, Hoth⟩, Hg⟩, Ho, ⟨%d0, H0⟩, ⟨%d1, H1⟩, ⟨%d2, H2⟩⟩
      iapply (run_last c (grid0.coords t) _ _ _ _ _ _ _ _ _ _ hF hL (iblk V c 0 t) _ _ Set.univ _)
      isplitl [H0]; · iexact H0
      isplitl [H1]; · iexists _; iexact H1
      isplitl [H2]; · iexists _; iexact H2
      isplitl [H4]; · iexact H4
      isplitl [H5]; · iexact H5
      iintro ⟨H0, H1, H2, H4, H5⟩
      isplitl [H4 H5 Hoth Hg]
      · isplitl [H4 H5 Hoth]
        · isplitl [H4]; · iexact H4
          isplitl [H5]; · iexact H5
          iexact Hoth
        iexact Hg
      isplitl [Ho]; · iexact Ho
      isplitl [H0]; · iexact H0
      isplitl [H1]; · iexact H1
      iexact H2
    · have hF : ¬isFirst (grid0.coords t) := fun h => hz ((isFirst_iff t).mp h)
      have hL : ¬isLast (grid0.coords t) := fun h => hl ((isLast_iff t).mp h)
      rw [Dat.leavesExact_idle (dat V c) 1 t (idle_1 t hl) (noflush_1 t hl)]
      rw [Dat.leavesExact_idle (dat V c) 2 t (idle_2 t hl) (noflush_2 t hl)]
      rw [acc_pos V c t hz]; (try dsimp only)
      rw [Phi_castSucc V c t, Phi_pos V c _ _ hz]
      iintro ⟨⟨⟨H4, H5, Hoth⟩, Hg⟩, Ho, ⟨%d0, H0⟩, ⟨%d1, H1⟩, ⟨%d2, H2⟩⟩
      iapply (run_mid c (grid0.coords t) _ _ _ _ _ _ _ _ _ _ hF hL (iblk V c 0 t) _ _ _ _ Set.univ _)
      isplitl [H0]; · iexact H0
      isplitl [H1]; · iexact H1
      isplitl [H2]; · iexact H2
      isplitl [H4]; · iexact H4
      isplitl [H5]; · iexact H5
      iintro ⟨H0, H1, H2, H4, H5⟩
      isplitl [H4 H5 Hoth Hg]
      · isplitl [H4 H5 Hoth]
        · isplitl [H4]; · iexact H4
          isplitl [H5]; · iexact H5
          iexact Hoth
        iexact Hg
      isplitl [Ho]; · iexact Ho
      isplitl [H0]; · iexact H0
      isplitl [H1]; · iexists _; iexact H1
      iexists _; iexact H2

/-- The body obligation of the reduction, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl, Phi_zero V c 0 _ rfl]
  try exact Idealize.SL.BI.Entails.refl _

/-- After the last point the invariant gives the scoped buffers back at some contents. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 32 := N32; omega), PhiA_eq]
  iintro ⟨⟨H4, H5, Ho⟩, Hg⟩
  isplitl [H4 H5 Ho]
  · isplitl [H4]; · iexists _; iexact H4
    isplitl [H5]; · iexists _; iexact H5
    iexact Ho
  iexact Hg

end Cert.KernelIdeal.Reduce

end
-- ==== Proof.ProjectBody.lean ====
import proofs.«102056_j1872605741851_1_alg».proof.Proof.Gen.KernelIdeal.Launch
import proofs.«102056_j1872605741851_1_alg».proof.Proof.Gen.KernelIdeal.Skeleton
import proofs.«102056_j1872605741851_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros3 : (![0, 0, 0] : Fin 3 → Nat) = fun _ => 0 := by funext a; fin_cases a <;> rfl
theorem zeros2 : (![0, 0] : Fin 2 → Nat) = fun _ => 0 := by funext a; fin_cases a <;> rfl

/-- The quantize-and-project body on whole staging buffers: the four inputs are read and left as they were, and the
    result's buffer ends at the product of the token rows with the fake-quantized block. -/
theorem run_project (c : Dev nD) (i : grid1.Coords)
    (arg2 : Memref sig .tc .vmem S1x32x16384 .f32) (harg2 : arg2.IsWhole)
    (arg3 : Memref sig .tc .vmem S1x4x32 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x4x16384 .f32) (harg6 : arg6.IsWhole)
    (x : Vec F S1x32x16384 .f32) (a : Vec F S1x4x32 .f32) (sc zp : Vec F S1x1 .f32) (E : Set ℕ) (K : PUnit → sProp 𝕄) :
    iprop(owns (c : Thread nD τ) arg2 fullShare x ∗ owns (c : Thread nD τ) arg3 fullShare a ∗ owns (c : Thread nD τ) arg4 fullShare sc
        ∗ owns (c : Thread nD τ) arg5 fullShare zp ∗ (∃ d, owns (c : Thread nD τ) arg6 fullShare d)
        ∗ (iprop(owns (c : Thread nD τ) arg2 fullShare x ∗ owns (c : Thread nD τ) arg3 fullShare a ∗ owns (c : Thread nD τ) arg4 fullShare sc
            ∗ owns (c : Thread nD τ) arg5 fullShare zp ∗ owns (c : Thread nD τ) arg6 fullShare (k1_pay1 x sc zp a)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_cons_self, View.mem_set_unit_zero zeros3 inb_S1x4x16384_S1x4x16384_0_0_0 y⟩),
    View.canon_cons_unit_zero zeros3]
  simp only [View.readAt_eq_ld, View.ld_unit_zero (S := S1x32x16384) zeros3, View.ld_unit_zero (S := S1x4x32) zeros3,
    View.ld_unit_zero (S := S1x1) zeros2]

end Cert.KernelIdeal.Project

end
-- ==== Proof.ProjectData.lean ====
import proofs.«102056_j1872605741851_1_alg».proof.Proof.ProjectBody

set_option maxRecDepth 16384

noncomputable section

namespace Cert.KernelIdeal.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the projection on core `c`: the four inputs' buffers hold their blocks, the result's the product
    of the token rows with the fake-quantized block. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay1 (iblk V c 0 t) (iblk V c 2 t) (iblk V c 3 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay1 (iblk V c 0 t) (iblk V c 2 t) (iblk V c 3 t) (iblk V c 1 t) := by dsimp only [dat]

/-! ## What each input's staging buffer holds when the body is called

The windows are uncut, so what a transfer puts in a buffer is the window's whole block; the body leaves every input
block in place; and a window that is not transferred at a point has not moved its block index since the last
transfer. Hence each input's current buffer reads its block at every point, transferred there or not. -/

/-- Window 0 — the [32,16384] block that is quantized and dequantized, the right factor — is transferred at every point. -/
theorem before_0 (c : Dev nD) (t : Fin cfg1.N) (d) : (dat V c).before 0 t d = iblk V c 0 t := by
  refine ((dat V c).before_in_eq_fetched 0 rfl (fun _ => rfl) (fun _ _ _ => rfl) (fun s => ?_) t d).trans ?_
  · rw [after_0]; unfold Dat.blockOf iblk; rw [A_eq]; try rfl
  · unfold Dat.fetched Dat.blockOf iblk; rw [A_eq]; try rfl

/-- Window 1 — the four rows of the left factor — is transferred when the first coordinate moves, and its block index depends on that coordinate only. -/
theorem before_1 (c : Dev nD) (t : Fin cfg1.N) (d) : (dat V c).before 1 t d = iblk V c 1 t := by
  refine ((dat V c).before_in_eq_fetched 1 rfl (fun _ => rfl) (fun _ _ _ => rfl) (fun s => ?_) t d).trans ?_
  · rw [after_1]; unfold Dat.blockOf iblk; rw [A_eq]; try rfl
  · unfold Dat.fetched Dat.blockOf iblk; rw [A_eq]; try rfl

/-- Window 2 — the scale, a single entry — is transferred once: it has one block. -/
theorem before_2 (c : Dev nD) (t : Fin cfg1.N) (d) : (dat V c).before 2 t d = iblk V c 2 t := by
  refine ((dat V c).before_in_eq_fetched 2 rfl (fun _ => rfl) (fun _ _ _ => rfl) (fun s => ?_) t d).trans ?_
  · rw [after_2]; unfold Dat.blockOf iblk; rw [A_eq]; try rfl
  · unfold Dat.fetched Dat.blockOf iblk; rw [A_eq]; try rfl

/-- Window 3 — the zero point, a single entry — is transferred once: it has one block. -/
theorem before_3 (c : Dev nD) (t : Fin cfg1.N) (d) : (dat V c).before 3 t d = iblk V c 3 t := by
  refine ((dat V c).before_in_eq_fetched 3 rfl (fun _ => rfl) (fun _ _ _ => rfl) (fun s => ?_) t d).trans ?_
  · rw [after_3]; unfold Dat.blockOf iblk; rw [A_eq]; try rfl
  · unfold Dat.fetched Dat.blockOf iblk; rw [A_eq]; try rfl

/-! ## The body at a point -/

/-- The body's triple with a frame carried through: on whole memrefs, the four inputs' at read contents `x`, `a`,
    `sc`, `zp` and the result's at anything, with any `P` and `Q` beside them, the body returns the inputs' as they
    were, the result's at the product of the rows `a` with the block `x` quantized by `sc` and `zp`, and `P`, `Q`
    untouched. -/
theorem framed_triple (c : Dev nD) (i : grid1.Coords)
    (arg2 : Memref sig .tc .vmem S1x32x16384 .f32) (harg2 : arg2.IsWhole)
    (arg3 : Memref sig .tc .vmem S1x4x32 .f32) (harg3 : arg3.IsWhole)
    (arg4 : Memref sig .tc .vmem S1x1 .f32) (harg4 : arg4.IsWhole)
    (arg5 : Memref sig .tc .vmem S1x1 .f32) (harg5 : arg5.IsWhole)
    (arg6 : Memref sig .tc .vmem S1x4x16384 .f32) (harg6 : arg6.IsWhole)
    (x : Vec F S1x32x16384 .f32) (a : Vec F S1x4x32 .f32) (sc zp : Vec F S1x1 .f32) (P Q : sProp 𝕄) :
    iprop(P ∗ Q
        ∗ owns (c : Thread nD τ) arg2 fullShare x
        ∗ owns (c : Thread nD τ) arg3 fullShare a
        ∗ owns (c : Thread nD τ) arg4 fullShare sc
        ∗ owns (c : Thread nD τ) arg5 fullShare zp
        ∗ (∃ d : Vec F S1x4x16384 .f32, owns (c : Thread nD τ) arg6 fullShare d))
      ⊢ wp frame (wpE (defs₀ (F := F)) Variants.none c none) Set.univ
          (cc1__matmul_kernel i arg2 harg2 arg3 harg3 arg4 harg4 arg5 harg5 arg6 harg6) fun _ =>
          iprop(P ∗ Q
            ∗ owns (c : Thread nD τ) arg2 fullShare x
            ∗ owns (c : Thread nD τ) arg3 fullShare a
            ∗ owns (c : Thread nD τ) arg4 fullShare sc
            ∗ owns (c : Thread nD τ) arg5 fullShare zp
            ∗ owns (c : Thread nD τ) arg6 fullShare (k1_pay1 x sc zp a)) := by
  iintro ⟨HP, HQ, H2, H3, H4, H5, ⟨%d, H6⟩⟩
  iapply (run_project c i arg2 harg2 arg3 harg3 arg4 harg4 arg5 harg5 arg6 harg6 x a sc zp Set.univ _)
  isplitl [H2]; · iexact H2
  isplitl [H3]; · iexact H3
  isplitl [H4]; · iexact H4
  isplitl [H5]; · iexact H5
  isplitl [H6]; · iexists d; iexact H6
  iintro ⟨H2, H3, H4, H5, H6⟩
  isplitl [HP]; · iexact HP
  isplitl [HQ]; · iexact HQ
  isplitl [H2]; · iexact H2
  isplitl [H3]; · iexact H3
  isplitl [H4]; · iexact H4
  isplitl [H5]; · iexact H5
  iexact H6

/-- The body at point `t`, on the windows' current staging memrefs: each input's holds its block (`before_k`), the
    invariant and what the core owes do not depend on the point, and the result's buffer is left at the product of
    the point's blocks. -/
theorem body_at (c : Dev nD) (t : Fin cfg1.N) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d))
        ∗ (∃ d, owns (c : Thread nD τ) (st1_3 t) fullShare ((dat V c).before 3 t d))
        ∗ (∃ d, owns (c : Thread nD τ) (st1_4 t) fullShare ((dat V c).before 4 t d)))
      ⊢ wp frame (wpE (defs₀ (F := F)) Variants.none c none) Set.univ (bodyAt1 t) fun _ =>
          iprop((dat V c).Φ t.succ ∗ (dat V c).owesAt () t.succ
            ∗ owns (c : Thread nD τ) (st1_0 t) fullShare ((dat V c).after 0 t)
            ∗ owns (c : Thread nD τ) (st1_1 t) fullShare ((dat V c).after 1 t)
            ∗ owns (c : Thread nD τ) (st1_2 t) fullShare ((dat V c).after 2 t)
            ∗ owns (c : Thread nD τ) (st1_3 t) fullShare ((dat V c).after 3 t)
            ∗ owns (c : Thread nD τ) (st1_4 t) fullShare ((dat V c).after 4 t)) := by
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (framed_triple c (grid1.coords t) _ _ _ _ _ _ _ _ _ _ (iblk V c 0 t) (iblk V c 1 t) (iblk V c 2 t) (iblk V c 3 t)
    ((dat V c).Φ t.castSucc) ((dat V c).owesAt () t.castSucc))
  isplitl [HΦ]; · iexact HΦ
  isplitl [Ho]; · iexact Ho
  isplitl [H0]; · iexact H0
  isplitl [H1]; · iexact H1
  isplitl [H2]; · iexact H2
  isplitl [H3]; · iexact H3
  iexists _; iexact H4

/-- The body obligation of the projection, at every point: the five windows one by one, none forgotten and none
    idle, are `body_at`'s. -/
theorem body_obligation (c : Dev nD) : BodyObligation (dat (F := F) V c) (defs₀ (F := F)) Variants.none () Set.univ := fun t => by
  rw [bigSep_W1, bigSep_W1]
  exact body_at V c t

end Cert.KernelIdeal.Project

end
-- ==== Proof.Whole.lean ====
import proofs.«102056_j1872605741851_1_alg».proof.Proof.RunCond
import proofs.«102056_j1872605741851_1_alg».proof.Proof.ReduceData
import proofs.«102056_j1872605741851_1_alg».proof.Proof.ProjectData
import Idealize.ShloMosaic.Lib.Pipeline.RegionsLoop

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents at the two regions' entries and exits -/

/-- What the reduction finds: the launch contents after the one reshape, read at the TensorCore's references. -/
abbrev Va (c : Dev nD) (b : Ref sig .tc) : Buf (Elt F) ((c : Thread nD τ).loc b) := V1 m c (Proc.devRef .tc b)
/-- The reduction's proof data. -/
abbrev d0 (c : Dev nD) : Dat τ (Elt F) Unit ℕ (UR sig nD τ) ℕ cfg0 c := Reduce.dat (Va m) c
/-- At the reduction's exit: its arrays at what the pipeline leaves, every other buffer as entered. -/
def Wa (c : Dev nD) : Valuation τ sig (Elt F) :=
  Pipeline.withArrays spec0 c (V1 m c) fun w => (d0 m c).arrAt w cfg0.N
/-- What the reduction leaves, as the unknowns the generated valuations are written over. -/
def outsA : Outs (F := F) := fun _ r c => Wa m c (Proc.devRef .tc r)
/-- What the projection finds: the host operations between the regions applied to the reduction's exit contents. -/
abbrev Vb (c : Dev nD) (b : Ref sig .tc) : Buf (Elt F) ((c : Thread nD τ).loc b) := V15 m (outsA m) c (Proc.devRef .tc b)
/-- The projection's proof data. -/
abbrev d1 (c : Dev nD) : Dat τ (Elt F) Unit ℕ (UR sig nD τ) ℕ cfg1 c := Project.dat (Vb m) c
/-- At the projection's exit. -/
def Wb (c : Dev nD) : Valuation τ sig (Elt F) :=
  Pipeline.withArrays spec1 c (V15 m (outsA m) c) fun w => (d1 m c).arrAt w cfg1.N
/-- What the two regions leave. -/
def outs : Outs (F := F) := fun J r c => if J = 16 then Wb m c (Proc.devRef .tc r) else Wa m c (Proc.devRef .tc r)

theorem outs_2 (r : Ref sig .tc) (c : Dev nD) : outs m 2 r c = Wa m c (Proc.devRef .tc r) := rfl
theorem outs_16 (r : Ref sig .tc) (c : Dev nD) : outs m 16 r c = Wb m c (Proc.devRef .tc r) := rfl
theorem V15_outs (c : Dev nD) : V15 m (outs m) c = V15 m (outsA m) c := rfl

theorem Wa_arr (c : Dev nD) (w : Fin cfg0.W) :
    Wa m c (Proc.devRef .tc (Pipeline.arrRef spec0 w)) = (d0 m c).arrAt w cfg0.N := by
  unfold Wa; exact Pipeline.withArrays_arr spec0 launch0.win.arr_inj c _ _ w
theorem Wb_arr (c : Dev nD) (w : Fin cfg1.W) :
    Wb m c (Proc.devRef .tc (Pipeline.arrRef spec1 w)) = (d1 m c).arrAt w cfg1.N := by
  unfold Wb; exact Pipeline.withArrays_arr spec1 launch1.win.arr_inj c _ _ w

/-- At the reduction's exit each of its arrays holds what the pipeline leaves, -/
theorem hF0 (c : Dev nD) (w : Fin cfg0.W) : (d0 m c).arrAt w cfg0.N = V2 m (outs m) c (Proc.devRef .tc (Pipeline.arrRef spec0 w)) := by
  match w with
  | ⟨0, _⟩ =>
    refine ((d0 m c).arrAt_in 0 rfl _).trans ((Reduce.A_eq (Va m) c 0).trans ?_)
    exact (V2_of m (outs m) c main_v0 (by decide)).symm
  | ⟨1, _⟩ =>
    refine (Wa_arr m c 1).symm.trans ?_
    show outs m 2 main_v1_0 c = V2 m (outs m) c (Proc.devRef .tc main_v1_0)
    simp only [V2, Function.update_self, Function.update_of_ne (StableHlo.devRef_ne_of_ne (by decide) : (Proc.devRef .tc main_v1_0 : DevRef τ sig) ≠ Proc.devRef .tc main_v1_1)]
  | ⟨2, _⟩ =>
    refine (Wa_arr m c 2).symm.trans ?_
    show outs m 2 main_v1_1 c = V2 m (outs m) c (Proc.devRef .tc main_v1_1)
    simp only [V2, Function.update_self]
/-- and every other buffer what it held at entry. -/
theorem hrest0 (c : Dev nD) : ∀ b, b ∉ Finset.univ.image (Pipeline.arrRef spec0) → V2 m (outs m) c (Proc.devRef .tc b) = Va m c b := by
  intro b hb
  refine V2_of m (outs m) c b fun h => ?_
  simp only [List.mem_cons, List.mem_nil_iff, or_false] at h
  rcases h with rfl | rfl
  · exact hb (Finset.mem_image.mpr ⟨1, Finset.mem_univ _, rfl⟩)
  · exact hb (Finset.mem_image.mpr ⟨2, Finset.mem_univ _, rfl⟩)
/-- The same at the projection's exit. -/
theorem hF1 (c : Dev nD) (w : Fin cfg1.W) : (d1 m c).arrAt w cfg1.N = V16 m (outs m) c (Proc.devRef .tc (Pipeline.arrRef spec1 w)) := by
  match w with
  | ⟨0, _⟩ =>
    refine ((d1 m c).arrAt_in 0 rfl _).trans ((Project.A_eq (Vb m) c 0).trans ?_)
    exact (V16_of m (outs m) c main_v0 (by decide)).symm
  | ⟨1, _⟩ =>
    refine ((d1 m c).arrAt_in 1 rfl _).trans ((Project.A_eq (Vb m) c 1).trans ?_)
    exact (V16_of m (outs m) c main_v35 (by decide)).symm
  | ⟨2, _⟩ =>
    refine ((d1 m c).arrAt_in 2 rfl _).trans ((Project.A_eq (Vb m) c 2).trans ?_)
    exact (V16_of m (outs m) c main_v13 (by decide)).symm
  | ⟨3, _⟩ =>
    refine ((d1 m c).arrAt_in 3 rfl _).trans ((Project.A_eq (Vb m) c 3).trans ?_)
    exact (V16_of m (outs m) c main_v14 (by decide)).symm
  | ⟨4, _⟩ =>
    refine (Wb_arr m c 4).symm.trans ?_
    show outs m 16 main_v36 c = V16 m (outs m) c (Proc.devRef .tc main_v36)
    simp only [V16, Function.update_self]
theorem hrest1 (c : Dev nD) : ∀ b, b ∉ Finset.univ.image (Pipeline.arrRef spec1) → V16 m (outs m) c (Proc.devRef .tc b) = Vb m c b := by
  intro b hb
  refine V16_of m (outs m) c b fun h => ?_
  simp only [List.mem_cons, List.mem_nil_iff, or_false] at h
  subst h
  exact hb (Finset.mem_image.mpr ⟨4, Finset.mem_univ _, rfl⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => d0 m c
  | ⟨1, _⟩ => fun c => d1 m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)

theorem hin0 (c : Dev nD) : Pipeline.ΦA spec0 c ⊢ (pdats m 0 c).Φ 0 := Reduce.hin (Va m) c
theorem hout0 (c : Dev nD) : (pdats m 0 c).Φ (Fin.last cfg0.N) ⊢ Pipeline.ΦA spec0 c := Reduce.hout (Va m) c
theorem hin1 (c : Dev nD) : Pipeline.ΦA spec1 c ⊢ (pdats m 1 c).Φ 0 := .rfl
theorem hout1 (c : Dev nD) : (pdats m 1 c).Φ (Fin.last cfg1.N) ⊢ Pipeline.ΦA spec1 c := .rfl

/-! ## The regions as segments -/

-- `iapply` of a library lemma stated over the pinned configuration unifies with it only when unification may
-- unfold plain definitions in a metavariable's type
set_option backward.isDefEq.respectTransparency.types false in
/-- Region 0 over the thread state: entered from every unscoped buffer at its entry valuation, left at the next one;
    its arrays split out of the unscoped buffers and put back at their exit contents, the generator register into the
    invariant and out, nothing owed, no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reduce.body_obligation (Va m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 m c)
    unfold Pipeline.ΦA
    iintro ⟨Hp, -, Hr⟩
    isplitl [Hr]; · iexact Hr
    iexact Hp
  hout c := by
    refine (hout0 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (fun b => V2 m (outs m) c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may
-- unfold plain definitions in a metavariable's type
set_option backward.isDefEq.respectTransparency.types false in
/-- Region 1 over the thread state: entered from every unscoped buffer at its entry valuation, left at the next one;
    its arrays split out of the unscoped buffers and put back at their exit contents, the generator register into the
    invariant and out, nothing owed, no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Project.body_obligation (Vb m) c).loose
  hwaits := Pipeline.hwaits_of_owed_zero _ _ _ _ L lv 1 fun _ _ => rfl
  pre c := iprop(StableHlo.held (c : Thread nD τ) (Pipeline.ucRefs τ sig) (V15 m (outsA m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 m c)
    unfold Pipeline.ΦA
    iintro ⟨Hp, -, Hr⟩
    isplitl [Hr]; · iexact Hr
    iexact Hp
  hout c := by
    refine (hout1 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (fun b => V16 m (outs m) c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole run -/

variable (ρ : Dev nD → PrngReg)

-- the launch theorem's implicit arguments are found by unifying its conclusion with this one
set_option backward.isDefEq.respectTransparency.types false in
/-- Every weakly fair execution of @main terminates, and every final memory holds each core's unscoped buffers at the last
    valuation: the arguments as launched, the result at what the projection's write-backs leave. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V16 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, H⟩; iexact H)
    (R0 := reg0 m) (hpre0 := fun _ => .rfl) (hpost0 := fun _ => .rfl)
    (R1 := reg1 m) (hpre1 := fun _ => .rfl) (hpost1 := fun _ => .rfl)

end Cert.KernelIdeal.Whole

end
-- ==== Proof.Spec.lean ====
import Idealize.ShloMosaic.PureOps.Ideal
import Idealize.ShloMosaic.PureOps.Ideal.Laws
import Idealize.ShloMosaic.Lib.ValueIdx

noncomputable section

open scoped BigOperators

/-! The mathematics both programs compute, stated once over the extended reals and over literal shapes:
    per-tensor asymmetric min-max fake quantization on the 8-bit grid, and the batched product
    out[b, t, p] = Σ_k A[b, t, k] · fq(X[b, k, p]). -/

namespace Cert.Quant

open Idealize.ShloMosaic Idealize.ShloMosaic.ValueIdx

/-- The scalar shape. -/
abbrev S0 : Shape := ⟨0, ![]⟩
/-- The token rows [32, 4, 32], the flattened feature map [32, 32, 65536], the result [32, 4, 65536]. -/
abbrev SA : Shape := ⟨3, ![32, 4, 32]⟩
abbrev SX : Shape := ⟨3, ![32, 32, 65536]⟩
abbrev SO : Shape := ⟨3, ![32, 4, 65536]⟩

/-- One entry fake-quantized with scale `s` and zero point `z`: divided by the scale, rounded half to even, shifted by the
    zero point, clamped to [0, 255], shifted back and rescaled. -/
def fq (s z x : EReal) : EReal :=
  (min ((255 : ℝ) : EReal) (max 0 (Ideal.liftRound Ideal.roundHalfEven (Ideal.div x s) + z)) - z) * s

/-- The projected entry (b, t, p): token row (b, t) against the fake-quantized column (b, ·, p). -/
def outAt (A : SA.Idx → EReal) (s z : EReal) (X : SX.Idx → EReal) (b : Fin 32) (t : Fin 4) (p : Fin 65536) : EReal :=
  ∑ k : Fin 32, A (ix3 b t k) * fq s z (X (ix3 b k p))

/-- The quantization scale from the tensor's extrema, as the rank-0 vector operations both programs spell:
    max((max(mx, 0) − min(mn, 0)) / 255, 1e-8). -/
def scaleVec (mn mx : FVec Ideal S0 .f32) : FVec Ideal S0 .f32 :=
  maximumf (Host.divf (subf (maximumf mx (constant (F := Ideal) S0 .f32 0x00000000#32)) (minimumf mn (constant (F := Ideal) S0 .f32 0x00000000#32)))
    (constant (F := Ideal) S0 .f32 0x437F0000#32)) (constant (F := Ideal) S0 .f32 0x322BCC77#32)

/-- The zero point from the minimum and the scale: clip(round(−min(mn, 0) / s), 0, 255). -/
def zpVec (mn s : FVec Ideal S0 .f32) : FVec Ideal S0 .f32 :=
  minimumf (sitofp (F := Ideal) .f32 (constantI S0 32 255#32))
    (maximumf (sitofp (F := Ideal) .f32 (constantI S0 32 0#32))
      (Host.roundeven (Host.divf (Host.negf (minimumf mn (constant (F := Ideal) S0 .f32 0x00000000#32))) s)))

/-- The bit pattern of +0.0 denotes 0, -/
theorem ofBits_zero : Ideal.ofBits .f32 0x00000000#32 = 0 := by
  simp [Ideal.ofBits, Ideal.ieee]
/-- and that of 255.0 the real 255. -/
theorem ofBits_255 : Ideal.ofBits .f32 0x437F0000#32 = ((255 : ℝ) : EReal) := by
  simp [Ideal.ofBits, Ideal.ieee, -EReal.coe_mul]; norm_num
/-- The signed words 0 and 255 convert to the same two numbers. -/
theorem toInt_zero : (((0#32 : BitVec 32).toInt : ℝ) : EReal) = 0 := by
  simp
theorem toInt_255 : (((255#32 : BitVec 32).toInt : ℝ) : EReal) = ((255 : ℝ) : EReal) := by
  norm_num [BitVec.toInt]

end Cert.Quant

end
-- ==== Proof.HostChain.lean ====
import proofs.«102056_j1872605741851_1_alg».proof.Proof.Whole
import proofs.«102056_j1872605741851_1_alg».proof.Proof.Spec
import proofs.«102056_j1872605741851_1_alg».proof.Proof.Gen.ReferenceIdeal.Read
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The reduction's two results as rank-0 vectors. -/
def mnK (c : Dev nD) : FVec Ideal S_ .f32 := shapeCast S_ (Wa m c (Proc.devRef .tc main_v1_0)) shapeCasts_S1x1_S_
def mxK (c : Dev nD) : FVec Ideal S_ .f32 := shapeCast S_ (Wa m c (Proc.devRef .tc main_v1_1)) shapeCasts_S1x1_S_

theorem V2_min (c : Dev nD) : V2 m (outsA m) c (Proc.devRef .tc main_v1_0) = Wa m c (Proc.devRef .tc main_v1_0) := by
  show _ = outsA m 2 main_v1_0 c
  simp only [V2, Function.update_self, Function.update_of_ne (StableHlo.devRef_ne_of_ne (by decide) : (Proc.devRef .tc main_v1_0 : DevRef τ sig) ≠ Proc.devRef .tc main_v1_1)]
theorem V2_max (c : Dev nD) : V2 m (outsA m) c (Proc.devRef .tc main_v1_1) = Wa m c (Proc.devRef .tc main_v1_1) := by
  show _ = outsA m 2 main_v1_1 c
  simp only [V2, Function.update_self]

/-- The projection's scale operand is the shared scale function of the reduction's two results, -/
theorem Vb_scale (c : Dev nD) : Vb m c main_v13 = shapeCast S1x1 (Cert.Quant.scaleVec (mnK m c) (mxK m c)) shapeCasts_S_S1x1 := by
  show V15 m (outsA m) c (Proc.devRef .tc main_v13) = _
  simp only [V15, V14, V13, V12, V11, V10, V9, V8, V7, V6, V5, V4, V3, hostOps1, hostOps1_1, hostOps1_2, hostOps1_3, hostOps1_4, hostOps1_5, hostOps1_6, hostOps1_7, hostOps1_8, hostOps1_9, hostOps1_10, hostOps1_11, hostOps1_12]
  after_results_simp
  rw [V2_min, V2_max]
  rfl

/-- its zero-point operand the shared zero-point function of the minimum and that scale, -/
theorem Vb_zp (c : Dev nD) :
    Vb m c main_v14 = shapeCast S1x1 (Cert.Quant.zpVec (mnK m c) (Cert.Quant.scaleVec (mnK m c) (mxK m c))) shapeCasts_S_S1x1 := by
  show V15 m (outsA m) c (Proc.devRef .tc main_v14) = _
  simp only [V15, V14, V13, V12, V11, V10, V9, V8, V7, V6, V5, V4, V3, hostOps1, hostOps1_1, hostOps1_2, hostOps1_3, hostOps1_4, hostOps1_5, hostOps1_6, hostOps1_7, hostOps1_8, hostOps1_9, hostOps1_10, hostOps1_11, hostOps1_12]
  after_results_simp
  rw [V2_min, V2_max]
  rfl

/-- the feature map both regions read is the reshaped second argument, -/
theorem Va_feat (c : Dev nD) :
    Va m c main_v0 = Cert.ReferenceIdeal.Read.val_main_v0 (F := Ideal) (m ((c.tc : Thread nD τ).loc main_arg1)) := by
  show V1 m c (Proc.devRef .tc main_v0) = _
  simp only [V1, hostOps0]
  after_results_simp
  rfl
theorem Vb_feat (c : Dev nD) :
    Vb m c main_v0 = Cert.ReferenceIdeal.Read.val_main_v0 (F := Ideal) (m ((c.tc : Thread nD τ).loc main_arg1)) := by
  refine Eq.trans ?_ (Va_feat m c)
  show V15 m (outsA m) c (Proc.devRef .tc main_v0) = V1 m c (Proc.devRef .tc main_v0)
  exact (V15_of m _ c main_v0 (by decide)).trans <| (V14_of m _ c main_v0 (by decide)).trans <| (V13_of m _ c main_v0 (by decide)).trans <| (V12_of m _ c main_v0 (by decide)).trans <| (V11_of m _ c main_v0 (by decide)).trans <| (V10_of m _ c main_v0 (by decide)).trans <| (V9_of m _ c main_v0 (by decide)).trans <| (V8_of m _ c main_v0 (by decide)).trans <| (V7_of m _ c main_v0 (by decide)).trans <| (V6_of m _ c main_v0 (by decide)).trans <| (V5_of m _ c main_v0 (by decide)).trans <| (V4_of m _ c main_v0 (by decide)).trans <| (V3_of m _ c main_v0 (by decide)).trans <| (V2_of m _ c main_v0 (by decide))

/-- and the token operand is the reference's fake-quantized first argument: the same host operations on the same array. -/
theorem Vb_tokens (c : Dev nD) :
    Vb m c main_v35 = Cert.ReferenceIdeal.Read.val_main_v21 (F := Ideal) (m ((c.tc : Thread nD τ).loc main_arg0)) := by
  have harg : V2 m (outsA m) c (Proc.devRef .tc main_arg0) = m ((c.tc : Thread nD τ).loc main_arg0) :=
    (V2_of m _ c main_arg0 (by decide)).trans ((V1_of m c main_arg0 (by decide)).trans rfl)
  show V15 m (outsA m) c (Proc.devRef .tc main_v35) = _
  simp only [V15, V14, V13, V12, V11, V10, V9, V8, V7, V6, V5, V4, V3, hostOps1, hostOps1_1, hostOps1_2, hostOps1_3, hostOps1_4, hostOps1_5, hostOps1_6, hostOps1_7, hostOps1_8, hostOps1_9, hostOps1_10, hostOps1_11, hostOps1_12]
  after_results_simp
  rw [harg]
  rfl

end Cert.KernelIdeal.Whole

end
-- ==== Proof.LibRunningMin.lean ====
/-
  A running minimum over consecutive blocks is the minimum over everything, and a kernel's minimum over one axis is
  a fold of `min`.

  A sequence `r 0, r 1, …` is visited in blocks of `B` consecutive entries. Each block's minimum is taken from a
  start value `T`; the first block's minimum is combined with `T` and every later block's with what the blocks before
  left. Since `c ≤ min x y ↔ c ≤ x ∧ c ≤ y`, the lower bounds of the running minimum after block `k` are exactly the
  lower bounds of `T` and of every entry below `B·(k+1)`; these are also the lower bounds of the one minimum from
  `T` over those entries, so the two are equal (`runMin_eq`). This is the shape of a grid axis that revisits an output
  block and keeps a minimum in it, against a reference that reduces the whole axis at once. It holds in any linear
  order, whatever `T` is (`T` need not be the top element).

  `multiReduction_minimumf_single`: at the ideal values a kernel's `minimumf` reduction over ONE axis, read at a result
  index, is the fold of `min` from the accumulator's value over that axis's coordinates.
-/
import Idealize.ShloMosaic.PureOps.Ideal.Laws

noncomputable section

namespace Idealize.ShloMosaic.RunningMin

variable {β : Type*} [LinearOrder β]

/-- The minimum, from `T`, over block `j`'s `B` entries of a sequence `r`. -/
def blockMin (B : ℕ) (T : β) (r : ℕ → β) (j : ℕ) : β :=
  (Finset.univ : Finset (Fin B)).fold min T (fun l' => r (B * j + l'.val))

/-- The running minimum after block `k`: the first block's minimum is taken against `T`, every later block's
    against what the blocks before left. -/
def runMin (B : ℕ) (T : β) (r : ℕ → β) : ℕ → β
  | 0 => min T (blockMin B T r 0)
  | k + 1 => min (runMin B T r k) (blockMin B T r (k + 1))

theorem runMin_zero (B : ℕ) (T : β) (r : ℕ → β) : runMin B T r 0 = min T (blockMin B T r 0) := rfl

theorem runMin_succ (B : ℕ) (T : β) (r : ℕ → β) (k : ℕ) :
    runMin B T r (k + 1) = min (runMin B T r k) (blockMin B T r (k + 1)) := rfl

/-- The lower bounds of a block's minimum: those of `T` and of each of the block's entries. -/
theorem le_blockMin (B : ℕ) (T : β) (r : ℕ → β) (c : β) (j : ℕ) :
    c ≤ blockMin B T r j ↔ c ≤ T ∧ ∀ l, B * j ≤ l → l < B * j + B → c ≤ r l := by
  unfold blockMin
  rw [Finset.le_fold_min]
  constructor
  · rintro ⟨hT, h⟩
    refine ⟨hT, fun l h1 h2 => ?_⟩
    have h3 : c ≤ r (B * j + (l - B * j)) := h ⟨l - B * j, by omega⟩ (Finset.mem_univ _)
    rwa [show B * j + (l - B * j) = l from by omega] at h3
  · rintro ⟨hT, h⟩
    exact ⟨hT, fun x _ => h _ (by omega) (by have := x.isLt; omega)⟩

/-- The lower bounds of the running minimum after block `k`: those of `T` and of every entry below `B·(k+1)`. -/
theorem le_runMin (B : ℕ) (T : β) (r : ℕ → β) (c : β) :
    ∀ k, c ≤ runMin B T r k ↔ c ≤ T ∧ ∀ l, l < B * (k + 1) → c ≤ r l
  | 0 => by
    rw [runMin_zero, le_min_iff, le_blockMin]
    have e0 : B * 0 = 0 := Nat.mul_zero B
    have e1 : B * (0 + 1) = B := by rw [Nat.zero_add, Nat.mul_one]
    constructor
    · rintro ⟨hT, -, h⟩; exact ⟨hT, fun l hl => h l (by omega) (by omega)⟩
    · rintro ⟨hT, h⟩; exact ⟨hT, hT, fun l _ hl => h l (by omega)⟩
  | k + 1 => by
    rw [runMin_succ, le_min_iff, le_runMin B T r c k, le_blockMin]
    have e : B * (k + 1 + 1) = B * (k + 1) + B := Nat.mul_succ B (k + 1)
    constructor
    · rintro ⟨⟨hT, h1⟩, -, h2⟩
      refine ⟨hT, fun l hl => ?_⟩
      by_cases hlt : l < B * (k + 1)
      · exact h1 l hlt
      · exact h2 l (by omega) (by omega)
    · rintro ⟨hT, h⟩
      exact ⟨⟨hT, fun l hl => h l (by omega)⟩, hT, fun l _ hl => h l (by omega)⟩

/-- After block `K` the running minimum is the one minimum, from `T`, over all `N = B·(K+1)` entries. -/
theorem runMin_eq (B : ℕ) (T : β) (r : ℕ → β) (K N : ℕ) (hN : N = B * (K + 1)) :
    runMin B T r K = (Finset.univ : Finset (Fin N)).fold min T (fun l => r l.val) := by
  subst hN
  refine eq_of_forall_le_iff fun c => ?_
  rw [le_runMin, Finset.le_fold_min]
  constructor
  · rintro ⟨hT, h⟩; exact ⟨hT, fun x _ => h x.val x.isLt⟩
  · rintro ⟨hT, h⟩; exact ⟨hT, fun l hl => h ⟨l, hl⟩ (Finset.mem_univ _)⟩

end Idealize.ShloMosaic.RunningMin

namespace Idealize.ShloMosaic.Ideal

/-- A kernel's minimum over ONE axis at the ideal values: the fold of `min`, from the accumulator's value, over that
    axis's coordinates (`Shape.Reduces.lift`: the result index with the coordinate inserted on the dropped axis). -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal

end
-- ==== Proof.ReduceValue.lean ====
import proofs.«102056_j1872605741851_1_alg».proof.Proof.ReduceData
import proofs.«102056_j1872605741851_1_alg».proof.Proof.Spec
import proofs.«102056_j1872605741851_1_alg».proof.Proof.LibRunningMin
import Idealize.ShloMosaic.Lib.Pipeline.Value
import Idealize.ShloMosaic.Lib.ValueIdx
import Idealize.ShloMosaic.PureOps.Ideal.Laws

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The array the reduction reads, as a function on its literal index type. -/
abbrev feat (c : Dev nD) : S32x32x65536.Idx → EReal := V c main_v0

/-! ## The two result arrays after the region -/

/-- The last point of the grid. -/
abbrev tLast : Fin cfg0.N := ⟨31, by decide⟩

/-- The one write-back of the first result window, at the last point, writes the running minimum: the window's only block,
    read through zero offsets, is the whole 1×1 array. -/
theorem flushed_min (c : Dev nD) (t : Fin cfg0.N) (hf : (cfg0.win 1).flush t = true) :
    (dat V c).flushed 1 t = ((cfg0.win 1).blk t).view.read (Elt Ideal) ((acc V c 31 (by decide)).1) := by
  have h31 : t.val = 31 := by
    have h := (flush0_1 t).mp hf
    have hN : t.val < 32 := lt_of_lt_of_eq t.isLt N32
    omega
  obtain rfl : t = tLast := Fin.ext h31
  show (cfg0.win 1).cut (grid0.coords tLast) ((dat V c).after 1 tLast) = _
  rw [after_1]
  have hz : (fun a => win0_1.index tLast a * main_v1_0.ty.shape.size a) = fun _ => 0 :=
    funext fun a => by fin_cases a <;> decide +kernel
  exact (Memref.read_access_unit_zero (Elt Ideal) main_v1_0 hz (fun a => by rw [congrFun hz a]; simp) _).symm

/-- The same for the second result window and the running maximum. -/
theorem flushed_max (c : Dev nD) (t : Fin cfg0.N) (hf : (cfg0.win 2).flush t = true) :
    (dat V c).flushed 2 t = ((cfg0.win 2).blk t).view.read (Elt Ideal) ((acc V c 31 (by decide)).2) := by
  have h31 : t.val = 31 := by
    have h := (flush0_2 t).mp hf
    have hN : t.val < 32 := lt_of_lt_of_eq t.isLt N32
    omega
  obtain rfl : t = tLast := Fin.ext h31
  show (cfg0.win 2).cut (grid0.coords tLast) ((dat V c).after 2 tLast) = _
  rw [after_2]
  have hz : (fun a => win0_2.index tLast a * main_v1_1.ty.shape.size a) = fun _ => 0 :=
    funext fun a => by fin_cases a <;> decide +kernel
  exact (Memref.read_access_unit_zero (Elt Ideal) main_v1_1 hz (fun a => by rw [congrFun hz a]; simp) _).symm

/-- After the region the first result array holds the running minimum the last point left, -/
theorem arrAt_min (c : Dev nD) :
    ((dat V c).arrAt 1 cfg0.N : S1x1.Idx → EReal) = (acc V c 31 (by decide)).1 := by
  refine (dat V c).arrAt_eq_of_cover 1 _ (flushed_min V c) fun i => ⟨tLast, (flush0_1 tLast).mpr rfl, ?_⟩
  show i ∈ ((View.whole main_v1_0).slice (win0_1.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_1.index tLast 0 * win0_1.size 0 ≤ (i 0 : Nat) ∧ (i 0 : Nat) < win0_1.index tLast 0 * win0_1.size 0 + win0_1.xsize (grid0.coords tLast) 0
    rw [show win0_1.index tLast 0 * win0_1.size 0 = 0 from by decide +kernel, show win0_1.xsize (grid0.coords tLast) 0 = 1 from by decide +kernel]; omega
  | ⟨1, _⟩ =>
    show win0_1.index tLast 1 * win0_1.size 1 ≤ (i 1 : Nat) ∧ (i 1 : Nat) < win0_1.index tLast 1 * win0_1.size 1 + win0_1.xsize (grid0.coords tLast) 1
    rw [show win0_1.index tLast 1 * win0_1.size 1 = 0 from by decide +kernel, show win0_1.xsize (grid0.coords tLast) 1 = 1 from by decide +kernel]; omega

/-- and the second the running maximum. -/
theorem arrAt_max (c : Dev nD) :
    ((dat V c).arrAt 2 cfg0.N : S1x1.Idx → EReal) = (acc V c 31 (by decide)).2 := by
  refine (dat V c).arrAt_eq_of_cover 2 _ (flushed_max V c) fun i => ⟨tLast, (flush0_2 tLast).mpr rfl, ?_⟩
  show i ∈ ((View.whole main_v1_1).slice (win0_2.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_2.index tLast 0 * win0_2.size 0 ≤ (i 0 : Nat) ∧ (i 0 : Nat) < win0_2.index tLast 0 * win0_2.size 0 + win0_2.xsize (grid0.coords tLast) 0
    rw [show win0_2.index tLast 0 * win0_2.size 0 = 0 from by decide +kernel, show win0_2.xsize (grid0.coords tLast) 0 = 1 from by decide +kernel]; omega
  | ⟨1, _⟩ =>
    show win0_2.index tLast 1 * win0_2.size 1 ≤ (i 1 : Nat) ∧ (i 1 : Nat) < win0_2.index tLast 1 * win0_2.size 1 + win0_2.xsize (grid0.coords tLast) 1
    rw [show win0_2.index tLast 1 * win0_2.size 1 = 0 from by decide +kernel, show win0_2.xsize (grid0.coords tLast) 1 = 1 from by decide +kernel]; omega

/-! ## One step of the running pair, by its bounds -/

theorem top_eq : (FloatOps.ofBits (F := Ideal) .f32 0x7F800000#32 : EReal) = ⊤ := by simp [Ideal.ofBits, Ideal.ieee]
theorem bot_eq : (FloatOps.ofBits (F := Ideal) .f32 0xFF800000#32 : EReal) = ⊥ := by simp [Ideal.ofBits, Ideal.ieee]

theorem lift_row (k : Fin 32) (l : Fin 65536) : (reduces_S32x65536_S32).lift (ix1 k) l = ix2 k l := by
  funext a; fin_cases a <;> rfl
theorem lift_col (j : S1.Idx) (k : Fin 32) : (reduces_S32x1_S1).lift j k = ix2 k (j 0) := by
  funext a; fin_cases a <;> rfl

/-- A row's minimum over the long axis, by its lower bounds. -/
theorem le_rowMin (x : FVec Ideal S32x65536 .f32) (k : Fin 32) (e : EReal) :
    e ≤ multiReduction .minimumf [1] S32 x 0x7F800000#32 reduces_S32x65536_S32 (.inl rfl) rfl (ix1 k) ↔ ∀ l : Fin 65536, e ≤ x (ix2 k l) := by
  have h := Ideal.multiReduction_minimumf_single x 0x7F800000#32 reduces_S32x65536_S32 (.inl rfl) rfl (ix1 k)
  rw [h, Finset.le_fold_min]
  constructor
  · rintro ⟨_, hh⟩ l
    exact le_of_le_of_eq (hh l (Finset.mem_univ _)) (congrArg x (lift_row k l))
  · intro hh
    refine ⟨by rw [top_eq]; exact le_top, fun l _ => ?_⟩
    exact le_of_le_of_eq (hh l) (congrArg x (lift_row k l)).symm

/-- The minimum over the 32 rows, by its lower bounds. -/
theorem le_colMin (z : FVec Ideal S32x1 .f32) (j : S1.Idx) (e : EReal) :
    e ≤ multiReduction .minimumf [0] S1 z 0x7F800000#32 reduces_S32x1_S1 (.inl rfl) rfl j ↔ ∀ k : Fin 32, e ≤ z (ix2 k (j 0)) := by
  have h := Ideal.multiReduction_minimumf_single z 0x7F800000#32 reduces_S32x1_S1 (.inl rfl) rfl j
  rw [h, Finset.le_fold_min]
  constructor
  · rintro ⟨_, hh⟩ k
    exact le_of_le_of_eq (hh k (Finset.mem_univ _)) (congrArg z (lift_col j k))
  · intro hh
    refine ⟨by rw [top_eq]; exact le_top, fun k _ => ?_⟩
    exact le_of_le_of_eq (hh k) (congrArg z (lift_col j k)).symm

/-- The block with its unit axis dropped: entry (k, l) is the block's entry (0, k, l). -/
theorem pay3_apply (x0 : Vec Ideal S1x32x65536 .f32) (k : Fin 32) (l : Fin 65536) : k0_pay3 x0 (ix2 k l) = x0 (ix3 0 k l) := by
  unfold k0_pay3
  refine shapeCast_apply x0 _ (ix2 k l) (ix3 0 k l) ?_
  refine (Shape.rowMajor_val_three _).trans (Eq.trans ?_ (Shape.rowMajor_val_two _).symm)
  show ((0 : ℕ) * 32 + k.val) * 65536 + l.val = k.val * 65536 + l.val
  omega

/-- A column of 32 entries read as a 32×1 array. -/
theorem cast_col (v : FVec Ideal S32 .f32) (k : Fin 32) (q : Fin 1) : shapeCast S32x1 v shapeCasts_S32_S32x1 (ix2 k q) = v (ix1 k) := by
  refine shapeCast_apply v _ (ix2 k q) (ix1 k) ?_
  refine (Shape.rowMajor_val_one _).trans (Eq.trans ?_ (Shape.rowMajor_val_two _).symm)
  show k.val = k.val * 1 + q.val
  have hq : q.val < 1 := q.isLt
  omega

/-- A single entry read as a 1×1 array. -/
theorem cast_one (v : FVec Ideal S1 .f32) (i : S1x1.Idx) : shapeCast S1x1 v shapeCasts_S1_S1x1 i = v (ix1 0) := by
  refine shapeCast_apply v _ i (ix1 0) ?_
  refine (Shape.rowMajor_val_one _).trans (Eq.trans ?_ (Shape.rowMajor_val_two _).symm)
  show (0 : ℕ) = (i 0).val * 1 + (i 1).val
  have h0 : (i 0).val < 1 := (i 0).isLt
  have h1 : (i 1).val < 1 := (i 1).isLt
  omega

/-- An index of a 1×32×65536 block has first coordinate zero. -/
theorem blk_idx (y : S1x32x65536.Idx) : y = ix3 0 (y 1) (y 2) :=
  (eq_ix3 y).trans (congrArg (fun a => ix3 a (y 1) (y 2)) (Fin.fin_one_eq_zero (y 0)))

/-- One step of the running minimum, by its lower bounds: those of the value before and of every entry of the block. -/
theorem le_pay4 (x0 : Vec Ideal S1x32x65536 .f32) (s : Vec Ideal S1x1 .f32) (i : S1x1.Idx) (e : EReal) :
    e ≤ k0_pay4 x0 s i ↔ e ≤ s i ∧ ∀ y : S1x32x65536.Idx, e ≤ x0 y := by
  unfold k0_pay4
  dsimp only
  rw [shapeCast_self, minimumf_apply, le_min_iff]
  refine and_congr_right fun _ => ?_
  constructor
  · intro h y
    have h7 := le_of_le_of_eq h (cast_one _ i)
    have h6 := (le_colMin _ _ e).mp h7 (y 1)
    have h5 := le_of_le_of_eq h6 (cast_col _ (y 1) _)
    have h4 := (le_rowMin _ _ e).mp h5 (y 2)
    have h3 := le_of_le_of_eq h4 (pay3_apply x0 (y 1) (y 2))
    exact le_of_le_of_eq h3 (congrArg x0 (blk_idx y).symm)
  · intro h
    refine le_of_le_of_eq ?_ (cast_one _ i).symm
    refine (le_colMin _ _ e).mpr fun k => ?_
    refine le_of_le_of_eq ?_ (cast_col _ k _).symm
    refine (le_rowMin _ _ e).mpr fun l => ?_
    refine le_of_le_of_eq ?_ (pay3_apply x0 k l).symm
    exact h _

/-- A row's maximum over the long axis, by its upper bounds. -/
theorem rowMax_le (x : FVec Ideal S32x65536 .f32) (k : Fin 32) (e : EReal) :
    multiReduction .maximumf [1] S32 x 0xFF800000#32 reduces_S32x65536_S32 (.inl rfl) rfl (ix1 k) ≤ e ↔ ∀ l : Fin 65536, x (ix2 k l) ≤ e := by
  have h := Ideal.multiReduction_maximumf_single x 0xFF800000#32 reduces_S32x65536_S32 (.inl rfl) rfl (ix1 k)
  rw [h, Finset.fold_max_le]
  constructor
  · rintro ⟨_, hh⟩ l
    exact le_of_eq_of_le (congrArg x (lift_row k l)).symm (hh l (Finset.mem_univ _))
  · intro hh
    refine ⟨by rw [bot_eq]; exact bot_le, fun l _ => ?_⟩
    exact le_of_eq_of_le (congrArg x (lift_row k l)) (hh l)

/-- The maximum over the 32 rows, by its upper bounds. -/
theorem colMax_le (z : FVec Ideal S32x1 .f32) (j : S1.Idx) (e : EReal) :
    multiReduction .maximumf [0] S1 z 0xFF800000#32 reduces_S32x1_S1 (.inl rfl) rfl j ≤ e ↔ ∀ k : Fin 32, z (ix2 k (j 0)) ≤ e := by
  have h := Ideal.multiReduction_maximumf_single z 0xFF800000#32 reduces_S32x1_S1 (.inl rfl) rfl j
  rw [h, Finset.fold_max_le]
  constructor
  · rintro ⟨_, hh⟩ k
    exact le_of_eq_of_le (congrArg z (lift_col j k)).symm (hh k (Finset.mem_univ _))
  · intro hh
    refine ⟨by rw [bot_eq]; exact bot_le, fun k _ => ?_⟩
    exact le_of_eq_of_le (congrArg z (lift_col j k)) (hh k)

/-- One step of the running maximum, by its upper bounds: those of the value before and of every entry of the block. -/
theorem pay5_le (x0 : Vec Ideal S1x32x65536 .f32) (s : Vec Ideal S1x1 .f32) (i : S1x1.Idx) (e : EReal) :
    k0_pay5 x0 s i ≤ e ↔ s i ≤ e ∧ ∀ y : S1x32x65536.Idx, x0 y ≤ e := by
  unfold k0_pay5
  dsimp only
  rw [shapeCast_self, maximumf_apply, max_le_iff]
  refine and_congr_right fun _ => ?_
  constructor
  · intro h y
    have h7 := le_of_eq_of_le (cast_one _ i).symm h
    have h6 := (colMax_le _ _ e).mp h7 (y 1)
    have h5 := le_of_eq_of_le (cast_col _ (y 1) _).symm h6
    have h4 := (rowMax_le _ _ e).mp h5 (y 2)
    have h3 := le_of_eq_of_le (pay3_apply x0 (y 1) (y 2)).symm h4
    exact le_of_eq_of_le (congrArg x0 (blk_idx y)) h3
  · intro h
    refine le_of_eq_of_le (cast_one _ i) ?_
    refine (colMax_le _ _ e).mpr fun k => ?_
    refine le_of_eq_of_le (cast_col _ k _) ?_
    refine (rowMax_le _ _ e).mpr fun l => ?_
    refine le_of_eq_of_le (pay3_apply x0 k l) ?_
    exact h _

/-- The reset value of the running minimum is the top element: everything is below it. -/
theorem le_pay1 (i : S1x1.Idx) (e : EReal) : e ≤ (k0_pay1 (F := Ideal)) i := by
  unfold k0_pay1
  (try dsimp only)
  rw [shapeCast_self]
  show e ≤ (FloatOps.ofBits (F := Ideal) .f32 0x7F800000#32 : EReal)
  rw [top_eq]; exact le_top

/-- The reset value of the running maximum is the bottom element: everything is above it. -/
theorem pay2_le (i : S1x1.Idx) (e : EReal) : (k0_pay2 (F := Ideal)) i ≤ e := by
  unfold k0_pay2
  (try dsimp only)
  rw [shapeCast_self]
  show (FloatOps.ofBits (F := Ideal) .f32 0xFF800000#32 : EReal) ≤ e
  rw [bot_eq]; exact bot_le

/-! ## From the blocks to the array -/

/-- The block of the array the reduction reads at point `t`, at its literal type. -/
abbrev xblk (c : Dev nD) (t : Fin cfg0.N) : Vec Ideal S1x32x65536 .f32 := iblk V c 0 t

/-- The input window's block index at point `t` is (t, 0, 0). -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Entry (0, k, l) of point `t`'s block is entry (t, k, l) of the array: a block's coordinate is its index times its size plus the coordinate inside. -/
theorem xblk_apply (c : Dev nD) (t : Fin cfg0.N) (y : S1x32x65536.Idx) :
    xblk V c t y = feat V c (ix3 ⟨t.val, lt_of_lt_of_eq t.isLt N32⟩ (y 1) (y 2)) := by
  show V c main_v0 (((cfg0.win 0).blk t).view.emb y) = V c main_v0 _
  refine congrArg (V c main_v0) ?_
  obtain ⟨e0, e1, e2⟩ := idx0 t
  funext a; apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 32 + 1 * (y 1).val = (y 1).val; omega
  | ⟨2, _⟩ => show win0_0.index t (2 : Fin 3) * 65536 + 1 * (y 2).val = (y 2).val; omega

/-! ## The running pair by its bounds -/

/-- The lower bounds of the running minimum after point `n`: the lower bounds of every entry of blocks 0 to `n`. -/
theorem le_acc (c : Dev nD) (i : S1x1.Idx) (e : EReal) : ∀ (n : ℕ) (hn : n < cfg0.N),
    e ≤ (acc V c n hn).1 i ↔ ∀ (m : ℕ) (hm : m < cfg0.N), m ≤ n → ∀ y : S1x32x65536.Idx, e ≤ xblk V c ⟨m, hm⟩ y
  | 0, hn => by
    show e ≤ k0_pay4 (xblk V c ⟨0, hn⟩) (k0_pay1 (F := Ideal)) i ↔ _
    refine (le_pay4 _ _ i e).trans ⟨fun h m hm hle y => ?_, fun h => ⟨le_pay1 i e, fun y => h 0 hn (Nat.le_refl 0) y⟩⟩
    obtain rfl : m = 0 := Nat.le_zero.mp hle
    exact h.2 y
  | n + 1, hn => by
    show e ≤ k0_pay4 (xblk V c ⟨n + 1, hn⟩) (acc V c n (Nat.lt_of_succ_lt hn)).1 i ↔ _
    refine (le_pay4 _ _ i e).trans ?_
    rw [le_acc c i e n (Nat.lt_of_succ_lt hn)]
    constructor
    · rintro ⟨h1, h2⟩ m hm hle y
      by_cases hm' : m ≤ n
      · exact h1 m hm hm' y
      · obtain rfl : m = n + 1 := by omega
        exact h2 y
    · intro h
      exact ⟨fun m hm hle y => h m hm (by omega) y, fun y => h (n + 1) hn (Nat.le_refl _) y⟩

/-- The upper bounds of the running maximum after point `n`: the upper bounds of every entry of blocks 0 to `n`. -/
theorem acc_le (c : Dev nD) (i : S1x1.Idx) (e : EReal) : ∀ (n : ℕ) (hn : n < cfg0.N),
    (acc V c n hn).2 i ≤ e ↔ ∀ (m : ℕ) (hm : m < cfg0.N), m ≤ n → ∀ y : S1x32x65536.Idx, xblk V c ⟨m, hm⟩ y ≤ e
  | 0, hn => by
    show k0_pay5 (xblk V c ⟨0, hn⟩) (k0_pay2 (F := Ideal)) i ≤ e ↔ _
    refine (pay5_le _ _ i e).trans ⟨fun h m hm hle y => ?_, fun h => ⟨pay2_le i e, fun y => h 0 hn (Nat.le_refl 0) y⟩⟩
    obtain rfl : m = 0 := Nat.le_zero.mp hle
    exact h.2 y
  | n + 1, hn => by
    show k0_pay5 (xblk V c ⟨n + 1, hn⟩) (acc V c n (Nat.lt_of_succ_lt hn)).2 i ≤ e ↔ _
    refine (pay5_le _ _ i e).trans ?_
    rw [acc_le c i e n (Nat.lt_of_succ_lt hn)]
    constructor
    · rintro ⟨h1, h2⟩ m hm hle y
      by_cases hm' : m ≤ n
      · exact h1 m hm hm' y
      · obtain rfl : m = n + 1 := by omega
        exact h2 y
    · intro h
      exact ⟨fun m hm hle y => h m hm (by omega) y, fun y => h (n + 1) hn (Nat.le_refl _) y⟩

/-- The running minimum after the last point is the minimum of the whole array: a number is below it exactly when it
    is below every entry. -/
theorem acc_min_spec (c : Dev nD) (i : S1x1.Idx) (e : EReal) :
    e ≤ (acc V c 31 (by decide)).1 i ↔ ∀ j : S32x32x65536.Idx, e ≤ feat V c j := by
  rw [le_acc V c i e 31 (by decide)]
  constructor
  · intro h j
    have hj : (j 0).val < 32 := (j 0).isLt
    have h1 := h (j 0).val (lt_of_lt_of_eq hj N32.symm) (by omega) (ix3 0 (j 1) (j 2))
    exact le_of_le_of_eq h1 ((xblk_apply V c ⟨(j 0).val, lt_of_lt_of_eq hj N32.symm⟩ (ix3 0 (j 1) (j 2))).trans (congrArg (feat V c) (eq_ix3 j).symm))
  · intro h m hm _ y
    exact le_of_le_of_eq (h _) (xblk_apply V c ⟨m, hm⟩ y).symm

/-- The running maximum after the last point is the maximum of the whole array. -/
theorem acc_max_spec (c : Dev nD) (i : S1x1.Idx) (e : EReal) :
    (acc V c 31 (by decide)).2 i ≤ e ↔ ∀ j : S32x32x65536.Idx, feat V c j ≤ e := by
  rw [acc_le V c i e 31 (by decide)]
  constructor
  · intro h j
    have hj : (j 0).val < 32 := (j 0).isLt
    have h1 := h (j 0).val (lt_of_lt_of_eq hj N32.symm) (by omega) (ix3 0 (j 1) (j 2))
    exact le_of_eq_of_le ((xblk_apply V c ⟨(j 0).val, lt_of_lt_of_eq hj N32.symm⟩ (ix3 0 (j 1) (j 2))).trans (congrArg (feat V c) (eq_ix3 j).symm)).symm h1
  · intro h m hm _ y
    exact le_of_eq_of_le (xblk_apply V c ⟨m, hm⟩ y) (h _)

end Cert.KernelIdeal.Reduce

end
-- ==== Proof.ProjectValue.lean ====
import proofs.«102056_j1872605741851_1_alg».proof.Proof.ProjectData
import proofs.«102056_j1872605741851_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## The product's index maps

The contraction is of the left factor's axis 1 with the right factor's axis 0, with no batch axis: the left index at
result position (t, q) and contraction position k is (t, k), the right one (k, q). -/

/-- The left factor's row is the result's row. -/
theorem lhs_row (j : S4x16384.Idx) (r : dot_S4x32_S32x16384_S4x16384_1_0_0_1_n_n.contr.Idx) :
    (dot_S4x32_S32x16384_S4x16384_1_0_0_1_n_n.lhsIdx j r 0).val = (j 0).val := by
  unfold DotDims.lhsIdx
  rw [dif_neg (show ¬(0 : Fin S4x32.rank) ∈ dot_S4x32_S32x16384_S4x16384_1_0_0_1_n_n.lhsBatch by decide),
    dif_pos (show (0 : Fin S4x32.rank) ∈ dot_S4x32_S32x16384_S4x16384_1_0_0_1_n_n.lhsNonContracting by decide)]
  rfl
/-- The left factor's column is the contraction position. -/
theorem lhs_col (j : S4x16384.Idx) (r : dot_S4x32_S32x16384_S4x16384_1_0_0_1_n_n.contr.Idx) :
    (dot_S4x32_S32x16384_S4x16384_1_0_0_1_n_n.lhsIdx j r 1).val = (r ⟨0, by decide⟩).val :=
  dot_S4x32_S32x16384_S4x16384_1_0_0_1_n_n.lhsIdx_val_of_single rfl j r
/-- The right factor's row is the contraction position. -/
theorem rhs_row (j : S4x16384.Idx) (r : dot_S4x32_S32x16384_S4x16384_1_0_0_1_n_n.contr.Idx) :
    (dot_S4x32_S32x16384_S4x16384_1_0_0_1_n_n.rhsIdx j r 0).val = (r ⟨0, by decide⟩).val :=
  dot_S4x32_S32x16384_S4x16384_1_0_0_1_n_n.rhsIdx_val_of_single rfl j r
/-- The right factor's column is the result's column. -/
theorem rhs_col (j : S4x16384.Idx) (r : dot_S4x32_S32x16384_S4x16384_1_0_0_1_n_n.contr.Idx) :
    (dot_S4x32_S32x16384_S4x16384_1_0_0_1_n_n.rhsIdx j r 1).val = (j 1).val := by
  unfold DotDims.rhsIdx
  rw [dif_neg (show ¬(1 : Fin S32x16384.rank) ∈ dot_S4x32_S32x16384_S4x16384_1_0_0_1_n_n.rhsBatch by decide),
    dif_pos (show (1 : Fin S32x16384.rank) ∈ dot_S4x32_S32x16384_S4x16384_1_0_0_1_n_n.rhsNonContracting by decide)]
  rfl

/-- The product into a zero accumulator, at (t, q): the sum over k of L(t, k) · R(k, q). -/
theorem matmul_at (L : FVec Ideal S4x32 .bf16) (R : FVec Ideal S32x16384 .bf16) (t : Fin 4) (q : Fin 16384) :
    (matmul dot_S4x32_S32x16384_S4x16384_1_0_0_1_n_n none L R (constant (F := Ideal) S4x16384 .f32 0x00000000#32) : S4x16384.Idx → EReal) (ix2 t q)
      = ∑ k : Fin 32, (L (ix2 t k) : EReal) * (R (ix2 k q) : EReal) := by
  show FloatOps.matmul dot_S4x32_S32x16384_S4x16384_1_0_0_1_n_n none L R (constant (F := Ideal) S4x16384 .f32 0x00000000#32) (ix2 t q) = _
  rw [Ideal.matmul_constant_zero_apply, ← Equiv.sum_comp (contrEquiv1 dot_S4x32_S32x16384_S4x16384_1_0_0_1_n_n 32 rfl rfl).symm]
  refine Finset.sum_congr rfl fun k _ => ?_
  have hk := contrEquiv1_symm_val dot_S4x32_S32x16384_S4x16384_1_0_0_1_n_n 32 rfl rfl k
  have el : dot_S4x32_S32x16384_S4x16384_1_0_0_1_n_n.lhsIdx (ix2 t q) ((contrEquiv1 dot_S4x32_S32x16384_S4x16384_1_0_0_1_n_n 32 rfl rfl).symm k) = ix2 t k := funext fun a => Fin.ext (by
    match a with
    | ⟨0, _⟩ => exact lhs_row _ _
    | ⟨1, _⟩ => exact (lhs_col _ _).trans hk)
  have er : dot_S4x32_S32x16384_S4x16384_1_0_0_1_n_n.rhsIdx (ix2 t q) ((contrEquiv1 dot_S4x32_S32x16384_S4x16384_1_0_0_1_n_n 32 rfl rfl).symm k) = ix2 k q := funext fun a => Fin.ext (by
    match a with
    | ⟨0, _⟩ => exact (rhs_row _ _).trans hk
    | ⟨1, _⟩ => exact rhs_col _ _)
  rw [el, er]

/-! ## The layout operations at an index -/

/-- A single entry spread over a [32, 16384] block reads that entry everywhere. -/
theorem spread_at (v : S1x1.Idx → EReal) (h : S1x1.Broadcasts S32x16384) (k : Fin 32) (q : Fin 16384) :
    broadcastTo S32x16384 v h (ix2 k q) = v (ix2 (0 : Fin 1) (0 : Fin 1)) := by
  refine broadcastTo_apply v h (ix2 k q) (ix2 (0 : Fin 1) (0 : Fin 1)) fun ax => ?_
  match ax with
  | ⟨0, _⟩ => rfl
  | ⟨1, _⟩ => rfl

/-- Rounding a block to the nearest integer, ties to even, rounds each entry. -/
theorem roundeven_at {s : Shape} {φ : FTy} (v : FVec Ideal s φ) (i : s.Idx) :
    roundeven v i = Ideal.liftRound Ideal.roundHalfEven (v i) := rfl

/-! ## The payload at an index -/

/-- The body's payload at (0, t, q): row t of the left factor against column q of the right factor's block, each
    entry of the column quantized and dequantized with the scale and the zero point. -/
theorem pay_at (x : Vec Ideal S1x32x16384 .f32) (sc zp : Vec Ideal S1x1 .f32) (a : Vec Ideal S1x4x32 .f32)
    (t : Fin 4) (q : Fin 16384) :
    (k1_pay1 x sc zp a : S1x4x16384.Idx → EReal) (ix3 (0 : Fin 1) t q)
      = ∑ k : Fin 32, (a (ix3 (0 : Fin 1) t k) : EReal)
          * Cert.Quant.fq (sc (ix2 (0 : Fin 1) (0 : Fin 1))) (zp (ix2 (0 : Fin 1) (0 : Fin 1))) (x (ix3 (0 : Fin 1) k q)) := by
  unfold k1_pay1
  refine (shapeCast_ab_1ab_apply _ _ (0 : Fin 1) t q).trans ?_
  refine (matmul_at _ _ t q).trans ?_
  refine Finset.sum_congr rfl fun k _ => ?_
  have hA : shapeCast S4x32 a shapeCasts_S1x4x32_S4x32 (ix2 t k) = a (ix3 (0 : Fin 1) t k) :=
    shapeCast_1ab_ab_apply a _ t k
  have hX : shapeCast S32x16384 x shapeCasts_S1x32x16384_S32x16384 (ix2 k q) = x (ix3 (0 : Fin 1) k q) :=
    shapeCast_1ab_ab_apply x _ k q
  have hS : broadcastTo S32x16384 (shapeCast S1x1 sc shapeCasts_S1x1_S1x1) broadcasts_S1x1_S32x16384 (ix2 k q)
      = sc (ix2 (0 : Fin 1) (0 : Fin 1)) := by
    rw [spread_at, shapeCast_self]
  have hZ : broadcastTo S32x16384 (shapeCast S1x1 zp shapeCasts_S1x1_S1x1) broadcasts_S1x1_S32x16384 (ix2 k q)
      = zp (ix2 (0 : Fin 1) (0 : Fin 1)) := by
    rw [spread_at, shapeCast_self]
  simp only [truncf_apply, mulf_apply, subf_apply, minimumf_apply, maximumf_apply, addf_apply, divf_apply, roundeven_at,
    broadcast_apply, hA, hX, hS, hZ]
  unfold Cert.Quant.fq
  rw [show (FloatOps.ofBits FTy.f32 0x437F0000#32 : Ideal .f32) = ((255 : ℝ) : EReal) from Cert.Quant.ofBits_255,
    show (FloatOps.ofBits FTy.f32 0x00000000#32 : Ideal .f32) = (0 : EReal) from Cert.Quant.ofBits_zero]

/-! ## Where the blocks sit in their arrays

The grid is 32 × 4, and point t has coordinates (t / 4, t % 4). The block of the right factor at t is
(t / 4, 0, t % 4) of size [1, 32, 16384]; of the left factor (t / 4, 0, 0) of size [1, 4, 32]; the scale and the zero
point have the one block (0, 0); the result's block is (t / 4, 0, t % 4) of size [1, 4, 16384]. -/

/-- The windows' block indices at every point, decided over the grid. -/
theorem idx_facts : ∀ t : Fin cfg1.N,
    win1_0.index t (0 : Fin 3) = t.val / 4 ∧ win1_0.index t (1 : Fin 3) = 0 ∧ win1_0.index t (2 : Fin 3) = t.val % 4
    ∧ win1_1.index t (0 : Fin 3) = t.val / 4 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 4 ∧ win1_4.index t (1 : Fin 3) = 0 ∧ win1_4.index t (2 : Fin 3) = t.val % 4 :=
  (by decide +kernel : ∀ t : Fin grid1.N, _)

/-- The right factor's block at t, at (0, k, q), is the array at (t / 4, k, 16384 · (t % 4) + q). -/
theorem read_X (c : Dev nD) (t : Fin cfg1.N) (k : Fin 32) (q : Fin 16384) (b : Fin 32) (p : Fin 65536)
    (hb : b.val = t.val / 4) (hp : p.val = (t.val % 4) * 16384 + q.val) :
    (iblk V c 0 t : S1x32x16384.Idx → EReal) (ix3 (0 : Fin 1) k q) = (V c main_v0 : S32x32x65536.Idx → EReal) (ix3 b k p) := by
  show V c main_v0 (((cfg1.win 0).blk t).view.emb (ix3 (0 : Fin 1) k q)) = V c main_v0 (ix3 b k p)
  obtain ⟨e0, e1, e2, -⟩ := idx_facts t
  refine congrArg (V c main_v0) (funext fun a => Fin.ext ?_)
  match a with
  | ⟨0, _⟩ => show win1_0.index t (0 : Fin 3) * 1 + 1 * 0 = b.val; omega
  | ⟨1, _⟩ => show win1_0.index t (1 : Fin 3) * 32 + 1 * k.val = k.val; omega
  | ⟨2, _⟩ => show win1_0.index t (2 : Fin 3) * 16384 + 1 * q.val = p.val; omega

/-- The left factor's block at t, at (0, r, k), is the array at (t / 4, r, k). -/
theorem read_A (c : Dev nD) (t : Fin cfg1.N) (r : Fin 4) (k : Fin 32) (b : Fin 32) (hb : b.val = t.val / 4) :
    (iblk V c 1 t : S1x4x32.Idx → EReal) (ix3 (0 : Fin 1) r k) = (V c main_v35 : S32x4x32.Idx → EReal) (ix3 b r k) := by
  show V c main_v35 (((cfg1.win 1).blk t).view.emb (ix3 (0 : Fin 1) r k)) = V c main_v35 (ix3 b r k)
  obtain ⟨-, -, -, e0, e1, e2, -⟩ := idx_facts t
  refine congrArg (V c main_v35) (funext fun a => Fin.ext ?_)
  match a with
  | ⟨0, _⟩ => show win1_1.index t (0 : Fin 3) * 1 + 1 * 0 = b.val; omega
  | ⟨1, _⟩ => show win1_1.index t (1 : Fin 3) * 4 + 1 * r.val = r.val; omega
  | ⟨2, _⟩ => show win1_1.index t (2 : Fin 3) * 32 + 1 * k.val = k.val; omega

/-- The scale's block is its array. -/
theorem read_s (c : Dev nD) (t : Fin cfg1.N) :
    (iblk V c 2 t : S1x1.Idx → EReal) (ix2 (0 : Fin 1) (0 : Fin 1)) = (V c main_v13 : S1x1.Idx → EReal) (ix2 (0 : Fin 1) (0 : Fin 1)) := by
  show V c main_v13 (((cfg1.win 2).blk t).view.emb (ix2 (0 : Fin 1) (0 : Fin 1))) = V c main_v13 (ix2 (0 : Fin 1) (0 : Fin 1))
  obtain ⟨-, -, -, -, -, -, e0, e1, -⟩ := idx_facts t
  refine congrArg (V c main_v13) (funext fun a => Fin.ext ?_)
  match a with
  | ⟨0, _⟩ => show win1_2.index t (0 : Fin 2) * 1 + 1 * 0 = 0; omega
  | ⟨1, _⟩ => show win1_2.index t (1 : Fin 2) * 1 + 1 * 0 = 0; omega

/-- The zero point's block is its array. -/
theorem read_z (c : Dev nD) (t : Fin cfg1.N) :
    (iblk V c 3 t : S1x1.Idx → EReal) (ix2 (0 : Fin 1) (0 : Fin 1)) = (V c main_v14 : S1x1.Idx → EReal) (ix2 (0 : Fin 1) (0 : Fin 1)) := by
  show V c main_v14 (((cfg1.win 3).blk t).view.emb (ix2 (0 : Fin 1) (0 : Fin 1))) = V c main_v14 (ix2 (0 : Fin 1) (0 : Fin 1))
  obtain ⟨-, -, -, -, -, -, -, -, e0, e1, -⟩ := idx_facts t
  refine congrArg (V c main_v14) (funext fun a => Fin.ext ?_)
  match a with
  | ⟨0, _⟩ => show win1_3.index t (0 : Fin 2) * 1 + 1 * 0 = 0; omega
  | ⟨1, _⟩ => show win1_3.index t (1 : Fin 2) * 1 + 1 * 0 = 0; omega

/-! ## From the blocks to the array -/

/-- The result array as one function of the operand arrays, index by index. -/
def G (c : Dev nD) : S32x4x65536.Idx → EReal := fun i =>
  Cert.Quant.outAt (V c main_v35) ((V c main_v13 : S1x1.Idx → EReal) (ix2 (0 : Fin 1) (0 : Fin 1)))
    ((V c main_v14 : S1x1.Idx → EReal) (ix2 (0 : Fin 1) (0 : Fin 1))) (V c main_v0) (i 0) (i 1) (i 2)

/-- What point t writes back is block t of that function: the payload at (0, r, q) is row r of the left factor's block
    against the quantized column q of the right factor's block, and those blocks sit in their arrays at
    (t / 4, r, ·) and (t / 4, ·, 16384 · (t % 4) + q). -/
theorem flushed_eq (c : Dev nD) (t : Fin cfg1.N) :
    (dat V c).flushed 4 t = ((cfg1.win 4).blk t).view.read (Elt Ideal) (G V c) := by
  show (cfg1.win 4).cut (grid1.coords t) ((dat V c).after 4 t) = _
  rw [after_4]
  funext y
  obtain ⟨u, r, q, rfl⟩ : ∃ (u : Fin 1) (r : Fin 4) (q : Fin 16384), y = ix3 u r q := ⟨y 0, y 1, y 2, eq_ix3 y⟩
  obtain rfl : u = 0 := Subsingleton.elim _ _
  show k1_pay1 (iblk V c 0 t) (iblk V c 2 t) (iblk V c 3 t) (iblk V c 1 t) (ix3 (0 : Fin 1) r q)
    = G V c (((cfg1.win 4).blk t).view.emb (ix3 (0 : Fin 1) r q))
  refine (pay_at (iblk V c 0 t) (iblk V c 2 t) (iblk V c 3 t) (iblk V c 1 t) r q).trans ?_
  have ht : t.val < 128 := t.isLt
  obtain ⟨b, hb⟩ : ∃ b : Fin 32, b.val = t.val / 4 := ⟨⟨t.val / 4, by omega⟩, rfl⟩
  obtain ⟨p, hp⟩ : ∃ p : Fin 65536, p.val = (t.val % 4) * 16384 + q.val := ⟨⟨(t.val % 4) * 16384 + q.val, by omega⟩, rfl⟩
  obtain ⟨-, -, -, -, -, -, -, -, -, -, e0, e1, e2⟩ := idx_facts t
  have hemb : ((cfg1.win 4).blk t).view.emb (ix3 (0 : Fin 1) r q) = ix3 b r p := funext fun a => Fin.ext (by
    match a with
    | ⟨0, _⟩ => show win1_4.index t (0 : Fin 3) * 1 + 1 * 0 = b.val; omega
    | ⟨1, _⟩ => show win1_4.index t (1 : Fin 3) * 4 + 1 * r.val = r.val; omega
    | ⟨2, _⟩ => show win1_4.index t (2 : Fin 3) * 16384 + 1 * q.val = p.val; omega)
  rw [hemb]
  show _ = Cert.Quant.outAt (V c main_v35) ((V c main_v13 : S1x1.Idx → EReal) (ix2 (0 : Fin 1) (0 : Fin 1)))
    ((V c main_v14 : S1x1.Idx → EReal) (ix2 (0 : Fin 1) (0 : Fin 1))) (V c main_v0) b r p
  unfold Cert.Quant.outAt
  refine Finset.sum_congr rfl fun k _ => ?_
  rw [read_A V c t r k b hb, read_s V c t, read_z V c t, read_X V c t k q b p hb hp]

/-- An index of the result array is in point t's block iff each coordinate is in the block's range on its axis. -/
theorem mem_blk (t : Fin cfg1.N) (i : S32x4x65536.Idx) :
    i ∈ ((cfg1.win 4).blk t).view.set ↔ ∀ a : Fin 3, win1_4.index t a * S1x4x16384.size a ≤ (i a).val
      ∧ (i a).val < win1_4.index t a * S1x4x16384.size a + S1x4x16384.size a := by
  show i ∈ ((View.whole main_v36).slice (win1_4.rect t)).set ↔ _
  rw [View.set_slice_whole, Rect.mem_set_unit]
  exact Iff.rfl

/-- Every index of the result array is in some point's block: (b, ·, p) in that of point 4 · b + p / 16384. -/
theorem cover (i : S32x4x65536.Idx) :
    ∃ t : Fin cfg1.N, (cfg1.win 4).flush t = true ∧ i ∈ ((cfg1.win 4).blk t).view.set := by
  have h0 : (i 0).val < 32 := (i 0).isLt
  have h1 : (i 1).val < 4 := (i 1).isLt
  have h2 : (i 2).val < 65536 := (i 2).isLt
  obtain ⟨t, ht⟩ : ∃ t : Fin cfg1.N, t.val = 4 * (i 0).val + (i 2).val / 16384 :=
    ⟨⟨4 * (i 0).val + (i 2).val / 16384, by show _ < 128; omega⟩, rfl⟩
  obtain ⟨-, -, -, -, -, -, -, -, -, -, e0, e1, e2⟩ := idx_facts t
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 4 ≤ (i 1).val ∧ (i 1).val < win1_4.index t (1 : Fin 3) * 4 + 4; omega
  | ⟨2, _⟩ => show win1_4.index t (2 : Fin 3) * 16384 ≤ (i 2).val ∧ (i 2).val < win1_4.index t (2 : Fin 3) * 16384 + 16384; omega

/-- The result array after the region is that function. -/
theorem arrAt_eq (c : Dev nD) : (dat V c).arrAt 4 cfg1.N = G V c :=
  (dat V c).arrAt_eq_of_cover 4 (G V c) (fun t _ => flushed_eq V c t) cover

/-- After the region the result array holds, at (b, t, p), the token row (b, t) against the fake-quantized column
    (b, ·, p) of the feature map, with the scale and the zero point the two 1×1 operands carry. -/
theorem arrAt_out (c : Dev nD) (b : Fin 32) (t : Fin 4) (p : Fin 65536) :
    ((dat V c).arrAt 4 cfg1.N : S32x4x65536.Idx → EReal) (ix3 b t p)
      = Cert.Quant.outAt (V c main_v35) ((V c main_v13 : S1x1.Idx → EReal) (ix2 0 0)) ((V c main_v14 : S1x1.Idx → EReal) (ix2 0 0))
          (V c main_v0) b t p := by
  rw [arrAt_eq]
  rfl

end Cert.KernelIdeal.Project

end
-- ==== Proof.RefValue.lean ====
import proofs.«102056_j1872605741851_1_alg».proof.Proof.Gen.ReferenceIdeal.Run
import proofs.«102056_j1872605741851_1_alg».proof.Proof.Gen.ReferenceIdeal.Read
import proofs.«102056_j1872605741851_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

variable (x0 : (⟨S32x4x32, .f32⟩ : BufTy).Contents (Elt Ideal)) (x1 : (⟨S32x32x256x256, .f32⟩ : BufTy).Contents (Elt Ideal))

/-- At the exact values a signed word converts to the integer it denotes. -/
theorem sitofp_toInt (w : BitVec 32) : FloatOps.sitofp (F := Ideal) .f32 w = (((w.toInt : ℤ) : ℝ) : EReal) := rfl

/-- Every entry of the reference's dequantized feature map is the shared fake quantization of the reshaped entry, with the
    feature map's scale and zero point. -/
theorem fq_at (j : S32x32x65536.Idx) :
    val_main_v42 (F := Ideal) x1 j
      = Cert.Quant.fq (val_main_v28 (F := Ideal) x1 ix0) (val_main_v32 (F := Ideal) x1 ix0) (val_main_v0 (F := Ideal) x1 j) := by
  rw [val_main_v42_apply, val_main_v40_apply, val_main_v38_apply, val_main_call7_v4_apply, val_main_call7_v3_apply,
    val_main_c_17_apply, val_main_call7_v2_apply, val_main_call7_v1_apply, val_main_call7_v0_apply, val_main_c_16_apply,
    val_main_v37_apply, val_main_v35_apply, val_main_v34_apply, val_main_v33_apply, val_main_v36_apply, val_main_v39_apply,
    val_main_v41_apply]
  have h33 : idx_main_v33 j = ix0 := rfl
  have h36 : idx_main_v36 j = ix0 := rfl
  have h39 : idx_main_v39 j = ix0 := rfl
  have h41 : idx_main_v41 j = ix0 := rfl
  rw [h33, h36, h39, h41]
  generalize val_main_v28 (F := Ideal) x1 ix0 = s
  generalize val_main_v32 (F := Ideal) x1 ix0 = z
  generalize val_main_v0 (F := Ideal) x1 j = x
  simp only [Ideal.mulf_def, Ideal.subf_def, Ideal.minimumf_def, Ideal.maximumf_def, Ideal.addf_def,
    Ideal.hostUnary_roundeven_def, Ideal.hostDivf_def, sitofp_toInt, Cert.Quant.toInt_zero, Cert.Quant.toInt_255]
  rfl

/-- The reference's result at (b, t, p): the fake-quantized token row (b, t) against the fake-quantized column (b, ·, p) of
    the reshaped feature map, with the feature map's own scale and zero point. -/
theorem ref_out (b : Fin 32) (t : Fin 4) (p : Fin 65536) :
    val_main_v43 (F := Ideal) x0 x1 (ix3 b t p)
      = Cert.Quant.outAt (val_main_v21 (F := Ideal) x0) (val_main_v28 (F := Ideal) x1 ix0) (val_main_v32 (F := Ideal) x1 ix0)
          (val_main_v0 (F := Ideal) x1) b t p := by
  rw [val_main_v43_apply]
  unfold Cert.Quant.outAt
  refine Finset.sum_congr rfl fun k _ => ?_
  have el : lidx_main_v43 (ix3 b t p) k = ix3 b t k :=
    funext fun a => Fin.ext (by match a with | ⟨0, _⟩ => rfl | ⟨1, _⟩ => rfl | ⟨2, _⟩ => rfl)
  have er : ridx_main_v43 (ix3 b t p) k = ix3 b k p :=
    funext fun a => Fin.ext (by match a with | ⟨0, _⟩ => rfl | ⟨1, _⟩ => rfl | ⟨2, _⟩ => rfl)
  rw [el, er, fq_at]

/-- The feature map's scale is the shared scale function of its two extrema, -/
theorem scale_eq : val_main_v28 (F := Ideal) x1 = Cert.Quant.scaleVec (val_main_v22 (F := Ideal) x1) (val_main_v24 (F := Ideal) x1) := by
  unfold val_main_v28 val_main_v27 val_main_v26 val_main_v25 val_main_v23 val_main_cst_13 val_main_cst_12 val_main_cst_11
    val_main_cst_9 Cert.Quant.scaleVec
  rfl

/-- and its zero point the shared zero-point function of its minimum and its scale. -/
theorem zp_eq : val_main_v32 (F := Ideal) x1 = Cert.Quant.zpVec (val_main_v22 (F := Ideal) x1) (val_main_v28 (F := Ideal) x1) := by
  unfold val_main_v32 val_main_call5_v2 val_main_call5_v1 val_main_call5_v0 val_main_v31 val_main_v30 val_main_v29 val_main_v23
    val_main_c_15 val_main_c_14 val_main_cst_9 Cert.Quant.zpVec
  rfl

/-- The bit pattern of +∞ denotes the top element, -/
theorem ofBits_posInf : Ideal.ofBits .f32 0x7F800000#32 = (⊤ : EReal) := by
  simp [Ideal.ofBits, Ideal.ieee]
/-- and that of −∞ the bottom one. -/
theorem ofBits_negInf : Ideal.ofBits .f32 0xFF800000#32 = (⊥ : EReal) := by
  simp [Ideal.ofBits, Ideal.ieee]

/-- Reducing over all three axes, every index of the feature map drops to the one scalar index. -/
theorem all_drop_ix0 :
    (Finset.univ.filter fun i : S32x32x65536.Idx => reducesTo_S32x32x65536_S_d0_1_2.drop i = ix0) = Finset.univ :=
  Finset.filter_true_of_mem fun i _ => funext fun a => a.elim0

/-- The reference's minimum over the whole reshaped feature map, by its universal property, -/
theorem refmin_spec (e : EReal) :
    e ≤ val_main_v22 (F := Ideal) x1 ix0 ↔ ∀ j : S32x32x65536.Idx, e ≤ val_main_v0 (F := Ideal) x1 j := by
  unfold val_main_v22
  generalize val_main_v0 (F := Ideal) x1 = X
  rw [Host.reduce_eq_fold, all_drop_ix0, val_main_cst_8_apply, Ideal.ofBits_def, ofBits_posInf]
  show e ≤ Finset.fold min ⊤ X Finset.univ ↔ _
  rw [Finset.le_fold_min]
  exact ⟨fun h j => h.2 j (Finset.mem_univ j), fun h => ⟨le_top, fun j _ => h j⟩⟩

/-- and its maximum. -/
theorem refmax_spec (e : EReal) :
    val_main_v24 (F := Ideal) x1 ix0 ≤ e ↔ ∀ j : S32x32x65536.Idx, val_main_v0 (F := Ideal) x1 j ≤ e := by
  unfold val_main_v24
  generalize val_main_v0 (F := Ideal) x1 = X
  rw [Host.reduce_eq_fold, all_drop_ix0, val_main_cst_10_apply, Ideal.ofBits_def, ofBits_negInf]
  show Finset.fold max ⊥ X Finset.univ ≤ e ↔ _
  rw [Finset.fold_max_le]
  exact ⟨fun h j => h.2 j (Finset.mem_univ j), fun h => ⟨bot_le, fun j _ => h j⟩⟩

end Cert.ReferenceIdeal.RefValue

end
-- ==== Proof.Bridge.lean ====
import proofs.«102056_j1872605741851_1_alg».proof.Proof.HostChain
import proofs.«102056_j1872605741851_1_alg».proof.Proof.ReduceValue
import proofs.«102056_j1872605741851_1_alg».proof.Proof.ProjectValue
import proofs.«102056_j1872605741851_1_alg».proof.Proof.RefValue

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

open Cert.ReferenceIdeal.Read (val_main_v0 val_main_v21 val_main_v22 val_main_v24 val_main_v28 val_main_v32)

variable (m : (ℓ : Loc nD τ sig) → Buf (Elt Ideal) ℓ)

/-- The reduction's minimum is the reference's minimum of the reshaped feature map: both are below exactly the numbers
    below every entry. -/
theorem mnK_eq (c : Dev nD) : mnK m c = val_main_v22 (F := Ideal) (m ((c.tc : Thread nD τ).loc main_arg1)) := by
  funext i
  rw [eq_ix0 i]
  refine eq_of_forall_le_iff fun e => ?_
  rw [Cert.ReferenceIdeal.RefValue.refmin_spec, ← Va_feat m c]
  have h : mnK m c ix0 = (Reduce.acc (Va m) c 31 (by decide)).1 (ix2 0 0) := by
    unfold mnK
    rw [Wa_arr m c 1, Reduce.arrAt_min (Va m) c]
    exact shapeCast_apply _ shapeCasts_S1x1_S_ ix0 (ix2 0 0) (by decide)
  rw [h]
  exact Reduce.acc_min_spec (Va m) c (ix2 0 0) e

/-- The reduction's maximum is the reference's maximum. -/
theorem mxK_eq (c : Dev nD) : mxK m c = val_main_v24 (F := Ideal) (m ((c.tc : Thread nD τ).loc main_arg1)) := by
  funext i
  rw [eq_ix0 i]
  refine eq_of_forall_ge_iff fun e => ?_
  rw [Cert.ReferenceIdeal.RefValue.refmax_spec, ← Va_feat m c]
  have h : mxK m c ix0 = (Reduce.acc (Va m) c 31 (by decide)).2 (ix2 0 0) := by
    unfold mxK
    rw [Wa_arr m c 2, Reduce.arrAt_max (Va m) c]
    exact shapeCast_apply _ shapeCasts_S1x1_S_ ix0 (ix2 0 0) (by decide)
  rw [h]
  exact Reduce.acc_max_spec (Va m) c (ix2 0 0) e

/-- What the kernel's program leaves in its result array, entry by entry: the reference's own expression of the two
    arguments. -/
theorem kernel_out (c : Dev nD) (b : Fin 32) (t : Fin 4) (p : Fin 65536) :
    (V16 m (outs m) c (Proc.devRef .tc main_v36) : S32x4x65536.Idx → EReal) (ix3 b t p)
      = Cert.Quant.outAt (val_main_v21 (F := Ideal) (m ((c.tc : Thread nD τ).loc main_arg0)))
          (val_main_v28 (F := Ideal) (m ((c.tc : Thread nD τ).loc main_arg1)) ix0)
          (val_main_v32 (F := Ideal) (m ((c.tc : Thread nD τ).loc main_arg1)) ix0)
          (val_main_v0 (F := Ideal) (m ((c.tc : Thread nD τ).loc main_arg1))) b t p := by
  have hs : (Vb m c main_v13 : S1x1.Idx → EReal) (ix2 0 0) = val_main_v28 (F := Ideal) (m ((c.tc : Thread nD τ).loc main_arg1)) ix0 := by
    rw [Vb_scale, Cert.ReferenceIdeal.RefValue.scale_eq, mnK_eq, mxK_eq]
    exact shapeCast_apply _ shapeCasts_S_S1x1 (ix2 0 0) ix0 (by decide)
  have hz : (Vb m c main_v14 : S1x1.Idx → EReal) (ix2 0 0) = val_main_v32 (F := Ideal) (m ((c.tc : Thread nD τ).loc main_arg1)) ix0 := by
    rw [Vb_zp, Cert.ReferenceIdeal.RefValue.zp_eq, Cert.ReferenceIdeal.RefValue.scale_eq, mnK_eq, mxK_eq]
    exact shapeCast_apply _ shapeCasts_S_S1x1 (ix2 0 0) ix0 (by decide)
  rw [← hF1 m c 4]
  refine (Project.arrAt_out (Vb m) c b t p).trans ?_
  rw [hs, hz, Vb_tokens, Vb_feat]

end Cert.KernelIdeal.Whole

end
-- ==== Proof.lean ====
/- The certificate of a two-pass quantize-and-project kernel against its jnp reference.
   Both programs fake-quantize the feature map X (per-tensor, asymmetric, 8 bits: scale and zero point from the
   global minimum and maximum) and the token rows A, and return out[b, t, p] = Σ_k A'[b, t, k] · X'[b, k, p].
   The kernel takes the extrema by a first pass that folds each of 32 blocks into two running cells, computes the
   scale, the zero point and A' by the reference's own host operations, and in a second pass quantizes each
   [32, 16384] block in place and multiplies it with the token rows. Over the extended reals the running extrema are
   the extrema of the whole array (both are characterised by the numbers below, resp. above, every entry), a change of
   float format is the identity, and the blockwise products are the entries of the one batched product; no law of
   arithmetic beyond that is used, so the precondition is never opened.
   The frames: each region's body is run once per control case on whole staging buffers (Proof/ReduceBody.lean,
   Proof/ProjectBody.lean), the proof data name what every window's buffer and the two scratch cells hold after each
   point (Proof/ReduceData.lean, Proof/ProjectData.lean), and the program's segments are chained at named contents of
   every unscoped buffer (Proof/RunCond.lean, Proof/Whole.lean); the word-level program's modules (Proof/K/) are the
   same text in its namespace. The values: Proof/ReduceValue.lean, Proof/ProjectValue.lean, Proof/HostChain.lean,
   Proof/Bridge.lean for the kernel, Proof/RefValue.lean for the reference, over the shared Proof/Spec.lean. -/
import proofs.«102056_j1872605741851_1_alg».proof.Defs
import proofs.«102056_j1872605741851_1_alg».proof.Proof.Gen.Kernel
import proofs.«102056_j1872605741851_1_alg».proof.Proof.Gen.KernelIdeal
import proofs.«102056_j1872605741851_1_alg».proof.Proof.Gen.ReferenceIdeal
import proofs.«102056_j1872605741851_1_alg».proof.Proof.Gen.Pre_finite_inputs
import proofs.«102056_j1872605741851_1_alg».proof.Proof.K.Whole
import proofs.«102056_j1872605741851_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and leaves its arguments as launched: both are unscoped buffers no segment writes. -/
theorem frame_k : Cert.frame_Kernel := fun m ρ _ =>
  (θ_run Cert.Kernel.defs _ _).mono (fun _ h c =>
    ⟨(h c (Proc.devRef .tc Cert.Kernel.main_arg0) (Finset.mem_filter.mpr ⟨StableHlo.devRef_mem_tcRefs Cert.Kernel.main_arg0, by decide⟩)).trans (Cert.Kernel.Gen.V16_main_arg0 m _ c),
     (h c (Proc.devRef .tc Cert.Kernel.main_arg1) (Finset.mem_filter.mpr ⟨StableHlo.devRef_mem_tcRefs Cert.Kernel.main_arg1, by decide⟩)).trans (Cert.Kernel.Gen.V16_main_arg1 m _ c)⟩)
    (Cert.Kernel.Whole.run_main (F := Bits) m ρ)

/-- The same for the idealized program. -/
theorem frame_ki : Cert.frame_KernelIdeal := fun m ρ _ =>
  (θ_run Cert.KernelIdeal.defs _ _).mono (fun _ h c =>
    ⟨(h c (Proc.devRef .tc Cert.KernelIdeal.main_arg0) (Finset.mem_filter.mpr ⟨StableHlo.devRef_mem_tcRefs Cert.KernelIdeal.main_arg0, by decide⟩)).trans (Cert.KernelIdeal.Gen.V16_main_arg0 m _ c),
     (h c (Proc.devRef .tc Cert.KernelIdeal.main_arg1) (Finset.mem_filter.mpr ⟨StableHlo.devRef_mem_tcRefs Cert.KernelIdeal.main_arg1, by decide⟩)).trans (Cert.KernelIdeal.Gen.V16_main_arg1 m _ c)⟩)
    (Cert.KernelIdeal.Whole.run_main (F := Ideal) m ρ)

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same result, entry by entry: the kernel's result array after its second region and the
    reference's batched product are one expression of the two arguments. -/
theorem algebraic : Cert.algebraic_KernelIdeal_ReferenceIdeal := by
  intro m ρ m' ρ' _ hagree
  refine ⟨fun c => Cert.KernelIdeal.Gen.V16 m (Cert.KernelIdeal.Whole.outs m) c (Proc.devRef .tc Cert.KernelIdeal.main_v36), ?_, ?_⟩
  · exact (θ_run Cert.KernelIdeal.defs _ _).mono (fun _ h c =>
      ⟨h c (Proc.devRef .tc Cert.KernelIdeal.main_v36) (Finset.mem_filter.mpr ⟨StableHlo.devRef_mem_tcRefs Cert.KernelIdeal.main_v36, by decide⟩),
       (h c (Proc.devRef .tc Cert.KernelIdeal.main_arg0) (Finset.mem_filter.mpr ⟨StableHlo.devRef_mem_tcRefs Cert.KernelIdeal.main_arg0, by decide⟩)).trans (Cert.KernelIdeal.Gen.V16_main_arg0 m _ c),
       (h c (Proc.devRef .tc Cert.KernelIdeal.main_arg1) (Finset.mem_filter.mpr ⟨StableHlo.devRef_mem_tcRefs Cert.KernelIdeal.main_arg1, by decide⟩)).trans (Cert.KernelIdeal.Gen.V16_main_arg1 m _ c)⟩)
      (Cert.KernelIdeal.Whole.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v43_eq, (hagree c).1, (hagree c).2]
    funext i
    obtain ⟨b, t, p, rfl⟩ : ∃ (b : Fin 32) (t : Fin 4) (p : Fin 65536), i = ix3 b t p := ⟨i 0, i 1, i 2, eq_ix3 i⟩
    rw [Cert.ReferenceIdeal.RefValue.ref_out]
    exact (Cert.KernelIdeal.Whole.kernel_out m c b t p).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
